-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v75) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S192x64 : Shape := ⟨2, ![192, 64]⟩
abbrev S64 : Shape := ⟨1, ![64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg9 : FVec F S64 .f32) (main_arg10 : FVec F S128x64 .f32) (main_arg11 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x64 .f32) (main_arg7 : FVec F S64 .f32) (main_arg8 : FVec F S192x64 .f32) (main_arg9 : FVec F S64 .f32) (main_arg10 : FVec F S128x64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg8
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : FVec F S800000x64 .f32) (main_arg2 : IVec S800000 32) (main_arg3 : IVec S800000 32) (main_arg4 : FVec F S192x64 .f32) (main_arg5 : FVec F S64 .f32) (main_arg6 : FVec F S128x64 .f32) (main_arg7 : FVec F S64 .f32) (main_arg8 : FVec F S192x64 .f32) (main_arg9 : FVec F S64 .f32) (main_arg10 : FVec F S128x64 .f32) (main_arg11 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  let main_c_3 : IVec S_ 1 := constantI S_ 1 1#1
  let main_v12 : IVec S_ 1 := (fun x v => Host.reduce IntOp.andi x v reducesTo_S192x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S192x64 : Shape := ⟨2, ![192, 64]⟩
abbrev S64 : Shape := ⟨1, ![64]⟩
abbrev S128x64 : Shape := ⟨2, ![128, 64]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S5000x64 : Shape := ⟨2, ![5000, 64]⟩
abbrev S5000x1 : Shape := ⟨2, ![5000, 1]⟩
abbrev S64x64 : Shape := ⟨2, ![64, 64]⟩
abbrev S1x64 : Shape := ⟨2, ![1, 64]⟩
abbrev S20000x64 : Shape := ⟨2, ![20000, 64]⟩

abbrev nBuf : Space → Nat
  | .hbm => 112
  | .vmem => 40
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S192x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S50000x64, .f32⟩
  | .hbm, ⟨27, _⟩ => ⟨S800000x1, .i32⟩
  | .hbm, ⟨28, _⟩ => ⟨S50000x64, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S800000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S_, .f32⟩
  | .hbm, ⟨72, _⟩ => ⟨S50000x64, .f32⟩
  | .hbm, ⟨73, _⟩ => ⟨S800000x1, .i32⟩
  | .hbm, ⟨74, _⟩ => ⟨S50000x64, .f32⟩
  | .hbm, ⟨75, _⟩ => ⟨S_, .f32⟩
  | .hbm, ⟨76, _⟩ => ⟨S50000x64, .f32⟩
  | .hbm, ⟨77, _⟩ => ⟨S800000x1, .i32⟩
  | .hbm, ⟨78, _⟩ => ⟨S50000x64, .f32⟩
  | .hbm, ⟨79, _⟩ => ⟨S_, .f32⟩
  | .hbm, ⟨80, _⟩ => ⟨S800000, .f32⟩
  | .hbm, ⟨81, _⟩ => ⟨S_, .f32⟩
  | .hbm, ⟨82, _⟩ => ⟨S50000, .f32⟩
  | .hbm, ⟨83, _⟩ => ⟨S800000x1, .i32⟩
  | .hbm, ⟨84, _⟩ => ⟨S50000, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x64, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x64, .f32⟩
  | .hbm, ⟨102, _⟩ => ⟨S_, .i32⟩
  | .hbm, ⟨103, _⟩ => ⟨S800000, .i32⟩
  | .hbm, ⟨104, _⟩ => ⟨S800000, .i1⟩
  | .hbm, ⟨105, _⟩ => ⟨S_, .i32⟩
  | .hbm, ⟨106, _⟩ => ⟨S800000, .i32⟩
  | .hbm, ⟨107, _⟩ => ⟨S800000, .i32⟩
  | .hbm, ⟨108, _⟩ => ⟨S800000, .i32⟩
  | .hbm, ⟨109, _⟩ => ⟨S800000x1, .i32⟩
  | .hbm, ⟨110, _⟩ => ⟨S800000x64, .f32⟩
  | .hbm, ⟨111, _⟩ => ⟨S800000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x1, .f32⟩
  | .local _ .vmem, ⟨7, _⟩ => ⟨S5000x1, .f32⟩
  | .local _ .vmem, ⟨8, _⟩ => ⟨S192x64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S20000x64, .f32⟩
  | .local _ .vmem, ⟨13, _⟩ => ⟨S20000x64, .f32⟩
  | .local _ .vmem, ⟨14, _⟩ => ⟨S20000x64, .f32⟩
  | .local _ .vmem, ⟨15, _⟩ => ⟨S20000x64, .f32⟩
  | .local _ .vmem, ⟨16, _⟩ => ⟨S128x64, .f32⟩
  | .local _ .vmem, ⟨17, _⟩ => ⟨S64, .f32⟩
  | .local _ .vmem, ⟨18, _⟩ => ⟨S20000x64, .f32⟩
  | .local _ .vmem, ⟨19, _⟩ => ⟨S20000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x1, .f32⟩
  | .local _ .vmem, ⟨27, _⟩ => ⟨S5000x1, .f32⟩
  | .local _ .vmem, ⟨28, _⟩ => ⟨S192x64, .f32⟩
  | .local _ .vmem, ⟨29, _⟩ => ⟨S64, .f32⟩
  | .local _ .vmem, ⟨30, _⟩ => ⟨S5000x64, .f32⟩
  | .local _ .vmem, ⟨31, _⟩ => ⟨S5000x64, .f32⟩
  | .local _ .vmem, ⟨32, _⟩ => ⟨S20000x64, .f32⟩
  | .local _ .vmem, ⟨33, _⟩ => ⟨S20000x64, .f32⟩
  | .local _ .vmem, ⟨34, _⟩ => ⟨S20000x64, .f32⟩
  | .local _ .vmem, ⟨35, _⟩ => ⟨S20000x64, .f32⟩
  | .local _ .vmem, ⟨36, _⟩ => ⟨S128x64, .f32⟩
  | .local _ .vmem, ⟨37, _⟩ => ⟨S64, .f32⟩
  | .local _ .vmem, ⟨38, _⟩ => ⟨S20000x64, .f32⟩
  | .local _ .vmem, ⟨39, _⟩ => ⟨S20000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_c_7 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_c_11 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_14 : Ref sig .tc := ⟨.hbm, 79, rfl⟩
abbrev main_v51 : Ref sig .tc := ⟨.hbm, 80, rfl⟩
abbrev main_cst_15 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_16 : Ref sig .tc := ⟨.hbm, 85, rfl⟩
abbrev main_v55 : Ref sig .tc := ⟨.hbm, 86, rfl⟩
abbrev main_v56 : Ref sig .tc := ⟨.hbm, 87, rfl⟩
abbrev main_cst_17 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_18 : Ref sig .tc := ⟨.hbm, 93, rfl⟩
abbrev main_v61 : Ref sig .tc := ⟨.hbm, 94, rfl⟩
abbrev main_v62 : Ref sig .tc := ⟨.hbm, 95, rfl⟩
abbrev main_c_19 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_20 : Ref sig .tc := ⟨.hbm, 102, rfl⟩
abbrev main_v68 : Ref sig .tc := ⟨.hbm, 103, rfl⟩
abbrev main_v69 : Ref sig .tc := ⟨.hbm, 104, rfl⟩
abbrev main_c_21 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg4_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem4_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S20000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S192x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S20000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S20000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S192x64_S192x64_0_0 : ∀ a, (![0, 0] : Fin 2 → Nat) a + S192x64.size a ≤ S192x64.size a
  h_S192x64 : 0 < S192x64.numel
  slices_S192x64_o0_0_S64x64 : S192x64.Slices ![0, 0] S64x64
  slices_S192x64_o64_0_S64x64 : S192x64.Slices ![64, 0] S64x64
  slices_S192x64_o128_0_S64x64 : S192x64.Slices ![128, 0] S64x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S128x64_S128x64_0_0 : ∀ a, (![0, 0] : Fin 2 → Nat) a + S128x64.size a ≤ S128x64.size a
  h_S128x64 : 0 < S128x64.numel
  slices_S128x64_o0_0_S64x64 : S128x64.Slices ![0, 0] S64x64
  slices_S128x64_o64_0_S64x64 : S128x64.Slices ![64, 0] S64x64
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  broadcasts_S1x64_S20000x64 : S1x64.Broadcasts S20000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  dot_S20000x64_S64x64_S20000x64_1_0_0_1_n_n_wf : DotDims.WF S20000x64 S64x64 S20000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x64.size a ≤ S192x64.size a
  hwx0_4 : ∀ i : grid0.Coords, EltTy.bits .f32 = 32 ∨ (Rect.block (s := S192x64) S192x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S800000x64.size a
  hwx1_0 : ∀ i : grid1.Coords, EltTy.bits .f32 = 32 ∨ (Rect.block (s := S800000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x64.size a ≤ S800000x64.size a
  hwx1_1 : ∀ i : grid1.Coords, EltTy.bits .f32 = 32 ∨ (Rect.block (s := S800000x64) S20000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S20000x64.size a ≤ S800000x64.size a
  hwx1_4 : ∀ i : grid1.Coords, EltTy.bits .f32 = 32 ∨ (Rect.block (s := S800000x64) S20000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S192x64.size a ≤ S192x64.size a
  hwx2_4 : ∀ i : grid2.Coords, EltTy.bits .f32 = 32 ∨ (Rect.block (s := S192x64) S192x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S800000x64.size a
  hwx3_0 : ∀ i : grid3.Coords, EltTy.bits .f32 = 32 ∨ (Rect.block (s := S800000x64) S20000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S20000x64.size a ≤ S800000x64.size a
  hwx3_1 : ∀ i : grid3.Coords, EltTy.bits .f32 = 32 ∨ (Rect.block (s := S800000x64) S20000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S20000x64.size a ≤ S800000x64.size a
  hwx3_4 : ∀ i : grid3.Coords, EltTy.bits .f32 = 32 ∨ (Rect.block (s := S800000x64) S20000x64.size (cc3_transform_4 i) (hinb3_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S192x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S20000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S20000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v22) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S192x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v67) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S20000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S20000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S192x64 : Shape := ⟨2, ![192, 64]⟩
abbrev S64 : Shape := ⟨1, ![64]⟩
abbrev S128x64 : Shape := ⟨2, ![128, 64]⟩
abbrev S_ : Shape := ⟨0, ![]⟩
abbrev S800000x1 : Shape := ⟨2, ![800000, 1]⟩
abbrev S800000x128 : Shape := ⟨2, ![800000, 128]⟩
abbrev S50000x128 : Shape := ⟨2, ![50000, 128]⟩
abbrev S50000 : Shape := ⟨1, ![50000]⟩
abbrev S50000x1 : Shape := ⟨2, ![50000, 1]⟩
abbrev S50000x192 : Shape := ⟨2, ![50000, 192]⟩
abbrev S1x64 : Shape := ⟨2, ![1, 64]⟩

abbrev nBuf : Space → Nat
  | .hbm => 132
  | .vmem => 0
  | .smem => 0
  | _ => 0

abbrev hbmTy0_0 (i : Nat) : BufTy := match i % 128 with
  | 0 => ⟨S50000x64, .f32⟩
  | 1 => ⟨S800000x64, .f32⟩
  | 2 => ⟨S800000, .i32⟩
  | 3 => ⟨S800000, .i32⟩
  | 4 => ⟨S192x64, .f32⟩
  | 5 => ⟨S64, .f32⟩
  | 6 => ⟨S128x64, .f32⟩
  | 7 => ⟨S64, .f32⟩
  | 8 => ⟨S192x64, .f32⟩
  | 9 => ⟨S64, .f32⟩
  | 10 => ⟨S128x64, .f32⟩
  | 11 => ⟨S64, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x128, .f32⟩
  | 37 => ⟨S50000x128, .f32⟩
  | 38 => ⟨S50000x192, .f32⟩
  | 39 => ⟨S50000x64, .f32⟩
  | 40 => ⟨S1x64, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S800000x128, .f32⟩
  | 65 => ⟨S800000x64, .f32⟩
  | 66 => ⟨S1x64, .f32⟩
  | 67 => ⟨S800000x64, .f32⟩
  | 68 => ⟨S800000x64, .f32⟩
  | 69 => ⟨S_, .f32⟩
  | 70 => ⟨S800000x64, .f32⟩
  | 71 => ⟨S800000x64, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x64, .f32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S_, .f32⟩
  | 87 => ⟨S800000, .f32⟩
  | 88 => ⟨S_, .f32⟩
  | 89 => ⟨S50000, .f32⟩
  | 90 => ⟨S800000x1, .i32⟩
  | 91 => ⟨S50000, .f32⟩
  | 92 => ⟨S_, .f32⟩
  | 93 => ⟨S50000, .f32⟩
  | 94 => ⟨S50000, .f32⟩
  | 95 => ⟨S50000x1, .f32⟩
  | 96 => ⟨S50000x128, .f32⟩
  | 97 => ⟨S50000x128, .f32⟩
  | 98 => ⟨S50000x192, .f32⟩
  | 99 => ⟨S50000x64, .f32⟩
  | 100 => ⟨S1x64, .f32⟩
  | 101 => ⟨S50000x64, .f32⟩
  | 102 => ⟨S50000x64, .f32⟩
  | 103 => ⟨S_, .f32⟩
  | 104 => ⟨S50000x64, .f32⟩
  | 105 => ⟨S50000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x64, .f32⟩
  | 124 => ⟨S800000x128, .f32⟩
  | 125 => ⟨S800000x64, .f32⟩
  | 126 => ⟨S1x64, .f32⟩
  | 127 => ⟨S800000x64, .f32⟩
  | _ => ⟨S50000x64, .f32⟩

abbrev hbmTy0_1 (i : Nat) : BufTy := match i % 128 with
  | 0 => ⟨S800000x64, .f32⟩
  | 1 => ⟨S_, .f32⟩
  | 2 => ⟨S800000x64, .f32⟩
  | 3 => ⟨S800000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call1_cst : Ref sig .tc := ⟨.hbm, 69, rfl⟩
abbrev main_call1_v0 : Ref sig .tc := ⟨.hbm, 70, rfl⟩
abbrev main_v45 : Ref sig .tc := ⟨.hbm, 71, rfl⟩
abbrev main_c_8 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_11 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call2_cst : Ref sig .tc := ⟨.hbm, 103, rfl⟩
abbrev main_call2_v0 : Ref sig .tc := ⟨.hbm, 104, rfl⟩
abbrev main_v71 : Ref sig .tc := ⟨.hbm, 105, rfl⟩
abbrev main_c_14 : Ref sig .tc := ⟨.hbm, 106, rfl⟩
abbrev main_v72 : Ref sig .tc := ⟨.hbm, 107, rfl⟩
abbrev main_v73 : Ref sig .tc := ⟨.hbm, 108, rfl⟩
abbrev main_c_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_16 : Ref sig .tc := ⟨.hbm, 115, rfl⟩
abbrev main_v79 : Ref sig .tc := ⟨.hbm, 116, rfl⟩
abbrev main_v80 : Ref sig .tc := ⟨.hbm, 117, rfl⟩
abbrev main_c_17 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_call3_cst : Ref sig .tc := ⟨.hbm, 129, rfl⟩
abbrev main_call3_v0 : Ref sig .tc := ⟨.hbm, 130, rfl⟩
abbrev main_v91 : Ref sig .tc := ⟨.hbm, 131, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x64_S50000x128_S50000x192_d1 : Shape.Concatenates [S50000x64, S50000x128] S50000x192 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  gather_S50000x64_S800000x1_S800000x64_1_0_n_n_0_1_164_wf : GatherDims.WF S50000x64 S800000x1 S800000x64 [1] [0] [] [0] [] 1 ![1, 64]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x192_S192x64_S50000x64_1_0_0_1_n_n_wf : DotDims.WF S50000x192 S192x64 S50000x64 [1] [0] [0] [1] [] []
  dot_S800000x128_S128x64_S800000x64_1_0_0_1_n_n_wf : DotDims.WF S800000x128 S128x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf

class Facts : Prop extends Facts₀ where

variable [Facts]
-- ==== Proof.Spec.lean ====
/-
  One layer of the message-passing network as two whole-array functions over the extended reals.

  NODE UPDATE.  Row `n` of the new node table is
      max( Σₖ h[n,k]·w[k,j]  +  Σₖ (s[n,k]·r[n])·w[64+k,j]  +  Σₖ (e[n,k]·r[n])·w[128+k,j]  +  b[j] , 0 )
  where `h` is the old node table, `s` and `e` the sums of the incoming source-node rows and edge rows,
  `r` the column of reciprocal in-degrees (in-degree clamped below by one), `w` the 192×64 weight
  matrix read as three stacked 64×64 blocks and `b` the bias.  The three sums are added in this order.

  EDGE UPDATE.  Row `q` of the new edge table is
      max( Σₖ a[q,k]·w[k,j]  +  Σₖ d[q,k]·w[64+k,j]  +  b[j] , 0 )
  where `a` and `d` are the gathered rows of the two endpoints and `w` is 128×64, two stacked blocks.

  The zero of the rectifier is kept as the float word it is printed with; nothing here evaluates it.
-/
import Idealize.ShloMosaic.PureOps.Ideal
import Idealize.ShloMosaic.Lib.ValueIdx

noncomputable section

open scoped BigOperators

namespace Cert.Gnn

open Idealize.ShloMosaic Idealize.ShloMosaic.ValueIdx

/-- node table, 50000 rows of 64 features -/
abbrev SNd : Shape := ⟨2, ![50000, 64]⟩
/-- one column per node -/
abbrev SN1 : Shape := ⟨2, ![50000, 1]⟩
/-- edge table, 800000 rows of 64 features -/
abbrev SEd : Shape := ⟨2, ![800000, 64]⟩
/-- node weights: three stacked 64×64 blocks -/
abbrev SWn : Shape := ⟨2, ![192, 64]⟩
/-- edge weights: two stacked 64×64 blocks -/
abbrev SWe : Shape := ⟨2, ![128, 64]⟩
/-- a bias row -/
abbrev SB : Shape := ⟨1, ![64]⟩

/-- Row `k` of the weight block that starts at row `off` (`off + 64 ≤ R`). -/
abbrev wrow {R : Nat} (off : Nat) (h : off + 64 ≤ R) (k : Fin 64) : Fin R := ⟨off + k.val, by have := k.isLt; omega⟩

/-- The rectifier's zero, as printed. -/
abbrev z0 : EReal := Ideal.ofBits .f32 0x00000000#32

/-- One entry of the node update. -/
def nodeAt (h s e : SNd.Idx → EReal) (r : SN1.Idx → EReal) (w : SWn.Idx → EReal) (b : SB.Idx → EReal)
    (n : Fin 50000) (j : Fin 64) : EReal :=
  max ((((∑ k : Fin 64, h (ix2 n k) * w (ix2 (wrow (R := 192) 0 (by omega) k) j))
        + ∑ k : Fin 64, (s (ix2 n k) * r (ix2 n (0 : Fin 1))) * w (ix2 (wrow (R := 192) 64 (by omega) k) j))
        + ∑ k : Fin 64, (e (ix2 n k) * r (ix2 n (0 : Fin 1))) * w (ix2 (wrow (R := 192) 128 (by omega) k) j))
        + b (ix1 j)) z0

/-- The node update as a whole-array function. -/
def nodeUpd (h s e : SNd.Idx → EReal) (r : SN1.Idx → EReal) (w : SWn.Idx → EReal) (b : SB.Idx → EReal) :
    SNd.Idx → EReal := fun i => nodeAt h s e r w b (i 0) (i 1)

theorem nodeUpd_ix2 (h s e : SNd.Idx → EReal) (r : SN1.Idx → EReal) (w : SWn.Idx → EReal) (b : SB.Idx → EReal)
    (n : Fin 50000) (j : Fin 64) : nodeUpd h s e r w b (ix2 n j) = nodeAt h s e r w b n j := rfl

/-- One entry of the edge update. -/
def edgeAt (a d : SEd.Idx → EReal) (w : SWe.Idx → EReal) (b : SB.Idx → EReal) (q : Fin 800000) (j : Fin 64) : EReal :=
  max (((∑ k : Fin 64, a (ix2 q k) * w (ix2 (wrow (R := 128) 0 (by omega) k) j))
        + ∑ k : Fin 64, d (ix2 q k) * w (ix2 (wrow (R := 128) 64 (by omega) k) j))
        + b (ix1 j)) z0

/-- The edge update as a whole-array function. -/
def edgeUpd (a d : SEd.Idx → EReal) (w : SWe.Idx → EReal) (b : SB.Idx → EReal) : SEd.Idx → EReal :=
  fun i => edgeAt a d w b (i 0) (i 1)

theorem edgeUpd_ix2 (a d : SEd.Idx → EReal) (w : SWe.Idx → EReal) (b : SB.Idx → EReal) (q : Fin 800000) (j : Fin 64) :
    edgeUpd a d w b (ix2 q j) = edgeAt a d w b q j := rfl

end Cert.Gnn

end
-- ==== Proof.Scatter.lean ====
/-
  The host's accumulating scatter along rows, read at one entry.

  For a table of N rows and C columns, a column of E signed row numbers and E update rows, the
  accumulating scatter leaves at entry (n, k) the table's own entry plus the sum, over the updates q
  whose row number is n, of update q's entry in column k.  An update whose row number is negative or
  not below N lands nowhere and is in no such sum.  The column k plays no part in WHICH updates are
  summed: that is what lets a scatter of two tables joined side by side be read as the two tables'
  scatters joined side by side.
-/
import Idealize.ShloMosaic.PureOps.Ideal
import Idealize.ShloMosaic.Lib.ValueIdx

noncomputable section

open scoped BigOperators

namespace Cert.Gnn

open Idealize.ShloMosaic Idealize.ShloMosaic.ValueIdx

/-- The updates that land on row `n`: those whose signed row number is `n`. -/
abbrev landsOn (idx : IVec ⟨2, ![800000, 1]⟩ 32) (n : Fin 50000) : Finset (Fin 800000) :=
  Finset.univ.filter fun q : Fin 800000 => (idx (ix2 q (0 : Fin 1))).toInt = (n.val : Int)

/-! ## Where one update entry lands

An update entry is named by the update's number `q` and its column `k'`.  Its landing place in the table is,
on each table axis, a signed start plus a window coordinate.  With the update's axis 1 as the one window axis,
the table's axis 0 inserted, and the one component of the start index sent to the table's axis 0:

  * on axis 0 (rows) the start is the signed row number of update `q` and the window coordinate is `0`;
  * on axis 1 (columns) the start is `0` and the window coordinate is `k'`.
-/

/-- On the row axis the start is update `q`'s signed row number: the start index has one component, read
    at the scatter-indices entry `(q, 0)` (`q` is the update's one scatter coordinate, `0` the component). -/
theorem rowScatter_start_row {C : Nat}
    (d : ScatterDims ⟨2, ![50000, C]⟩ ⟨2, ![800000, 1]⟩ ⟨2, ![800000, C]⟩)
    (huw : d.updateWindowDims = [(1 : Fin 2)]) (hiw : d.insertedWindowDims = [(0 : Fin 2)])
    (hsd : d.scatterDimsToOperandDims = [(0 : Fin 2)]) (hiv : d.indexVectorDim = 1)
    (idx : IVec ⟨2, ![800000, 1]⟩ 32) (q : Fin 800000) (k' : Fin C) (h0 : 0 < 2) :
    d.start (ix2 q k') idx ⟨0, h0⟩ = (idx (ix2 q (0 : Fin 1))).toInt := by
  obtain ⟨uw, iw, sd, iv, wf⟩ := d
  simp only at huw hiw hsd hiv
  subst huw hiw hsd hiv
  unfold ScatterDims.start
  -- axis 0 is named by the map, in position 0
  rw [dif_pos (by simp)]
  congr 2
  -- the scatter-indices entry read is (q, 0), coordinate by coordinate
  funext b
  match b with
  | ⟨0, _⟩ =>
    -- axis 0 of the scatter indices is not the index vector's: it takes the update's scatter coordinate, q
    unfold ScatterDims.siIdx
    rw [dif_neg (by simp)]
    unfold ScatterDims.siCoord
    apply Fin.ext
    simp only [Fin.coe_cast]
    rfl
  | ⟨1, _⟩ =>
    -- axis 1 is the index vector's: it takes the component's number, 0
    unfold ScatterDims.siIdx
    rw [dif_pos (by rfl)]
    apply Fin.ext
    rfl

/-- On the column axis the start is `0`: the map does not name that axis. -/
theorem rowScatter_start_col {C : Nat}
    (d : ScatterDims ⟨2, ![50000, C]⟩ ⟨2, ![800000, 1]⟩ ⟨2, ![800000, C]⟩)
    (hsd : d.scatterDimsToOperandDims = [(0 : Fin 2)])
    (idx : IVec ⟨2, ![800000, 1]⟩ 32) (j : (⟨2, ![800000, C]⟩ : Shape).Idx) (h1 : 1 < 2) :
    d.start j idx ⟨1, h1⟩ = 0 := by
  unfold ScatterDims.start
  rw [dif_neg (by rw [hsd]; simp)]

/-- On the row axis the window coordinate is `0`: that axis is inserted. -/
theorem rowScatter_window_row {C : Nat}
    (d : ScatterDims ⟨2, ![50000, C]⟩ ⟨2, ![800000, 1]⟩ ⟨2, ![800000, C]⟩)
    (hiw : d.insertedWindowDims = [(0 : Fin 2)])
    (j : (⟨2, ![800000, C]⟩ : Shape).Idx) (h0 : 0 < 2) :
    d.window j ⟨0, h0⟩ = 0 := by
  unfold ScatterDims.window
  rw [dif_neg (by rw [ScatterDims.sKept, hiw]; simp [Shape.kept])]

/-- On the column axis the window coordinate is the update entry's column: the column axis is the table's
    one kept axis, and the update's one window axis (axis 1) goes to it. -/
theorem rowScatter_window_col {C : Nat}
    (d : ScatterDims ⟨2, ![50000, C]⟩ ⟨2, ![800000, 1]⟩ ⟨2, ![800000, C]⟩)
    (huw : d.updateWindowDims = [(1 : Fin 2)]) (hiw : d.insertedWindowDims = [(0 : Fin 2)])
    (q : Fin 800000) (k' : Fin C) (h1 : 1 < 2) :
    d.window (ix2 q k') ⟨1, h1⟩ = k'.val := by
  obtain ⟨uw, iw, sd, iv, wf⟩ := d
  simp only at huw hiw
  subst huw hiw
  unfold ScatterDims.window
  rw [dif_pos (by simp [ScatterDims.sKept, Shape.kept])]
  rfl

/-- Update entry `(q, k')` lands on table entry `(n, k)` exactly when update `q`'s signed row number is `n` and
    `k' = k`.  The landing place is `(row number + 0, 0 + k')` when that is inside the table, and nothing otherwise;
    the column `k'` is always inside (`k' < C`), so the entry is dropped exactly when the row number is negative or
    not below `50000`, and then it equals no `n`. -/
theorem rowScatter_resultIdx?_eq_some_iff {C : Nat}
    (d : ScatterDims ⟨2, ![50000, C]⟩ ⟨2, ![800000, 1]⟩ ⟨2, ![800000, C]⟩)
    (huw : d.updateWindowDims = [(1 : Fin 2)]) (hiw : d.insertedWindowDims = [(0 : Fin 2)])
    (hsd : d.scatterDimsToOperandDims = [(0 : Fin 2)]) (hiv : d.indexVectorDim = 1)
    (idx : IVec ⟨2, ![800000, 1]⟩ 32) (q : Fin 800000) (k' : Fin C) (n : Fin 50000) (k : Fin C) :
    d.resultIdx? (ix2 q k') idx = some (ix2 n k) ↔
      (idx (ix2 q (0 : Fin 1))).toInt = (n.val : Int) ∧ k' = k := by
  have l0 : 0 < 2 := by omega
  have l1 : 1 < 2 := by omega
  have hs0 := rowScatter_start_row d huw hiw hsd hiv idx q k' l0
  have hs1 := rowScatter_start_col d hsd idx (ix2 q k') l1
  have hw0 := rowScatter_window_row d hiw (ix2 q k') l0
  have hw1 := rowScatter_window_col d huw hiw q k' l1
  unfold ScatterDims.resultIdx?
  split
  · -- the landing place is inside the table: compare it with (n, k) coordinate by coordinate
    rename_i h
    rw [Option.some.injEq]
    constructor
    · intro hf
      have e0 := congrArg Fin.val (congrFun hf ⟨0, l0⟩)
      have e1 := congrArg Fin.val (congrFun hf ⟨1, l1⟩)
      have p0 := (h ⟨0, l0⟩).1
      simp only [hs0, hs1, hw0, hw1] at e0 e1 p0
      change _ = n.val at e0
      change _ = k.val at e1
      exact ⟨by omega, Fin.ext (by omega)⟩
    · rintro ⟨e0, rfl⟩
      funext a
      match a with
      | ⟨0, _⟩ =>
        apply Fin.ext
        simp only [hs0, hw0]
        change _ = n.val
        omega
      | ⟨1, _⟩ =>
        apply Fin.ext
        simp only [hs1, hw1]
        change _ = k'.val
        omega
  · -- the landing place is outside the table: then the row number is no n below 50000
    rename_i h
    constructor
    · intro hf; cases hf
    · rintro ⟨e0, rfl⟩
      exfalso
      apply h
      intro a
      match a with
      | ⟨0, _⟩ =>
        simp only [hs0, hw0]
        change _ ∧ _ < ((50000 : Nat) : Int)
        have := n.isLt
        omega
      | ⟨1, _⟩ =>
        simp only [hs1, hw1]
        change _ ∧ _ < ((C : Nat) : Int)
        have := k'.isLt
        omega

/-- The accumulating row scatter at entry `(n, k)`, for any number of columns `C`: the dimension numbers are
    those of `x.at[rows].add(u)` (the update's axis 1 is the window, the table's axis 0 is indexed). -/
theorem hostScatterAdd_rows {C : Nat}
    (d : ScatterDims ⟨2, ![50000, C]⟩ ⟨2, ![800000, 1]⟩ ⟨2, ![800000, C]⟩)
    (huw : d.updateWindowDims = [(1 : Fin 2)]) (hiw : d.insertedWindowDims = [(0 : Fin 2)])
    (hsd : d.scatterDimsToOperandDims = [(0 : Fin 2)]) (hiv : d.indexVectorDim = 1)
    (x : (⟨2, ![50000, C]⟩ : Shape).Idx → EReal) (idx : IVec ⟨2, ![800000, 1]⟩ 32)
    (upd : (⟨2, ![800000, C]⟩ : Shape).Idx → EReal) (n : Fin 50000) (k : Fin C) :
    Ideal.hostScatterAdd d x idx upd (ix2 n k) = x (ix2 n k) + ∑ q ∈ landsOn idx n, upd (ix2 q k) := by
  unfold Ideal.hostScatterAdd
  refine congrArg (fun s => x (ix2 n k) + s) ?_
  symm
  -- the update entries landing on (n, k) are the (q, k) with q's row number n: re-index by q ↦ (q, k),
  -- whose inverse on those entries is (q, k') ↦ q
  apply Finset.sum_nbij' (fun q : Fin 800000 => (ix2 q k : (⟨2, ![800000, C]⟩ : Shape).Idx))
    (fun j : (⟨2, ![800000, C]⟩ : Shape).Idx => (j ⟨0, Nat.zero_lt_two⟩ : Fin 800000))
  · intro q hq
    simp only [Finset.mem_filter, Finset.mem_univ, true_and] at hq ⊢
    exact (rowScatter_resultIdx?_eq_some_iff d huw hiw hsd hiv idx q k n k).2 ⟨hq, rfl⟩
  · intro j hj
    obtain ⟨q, k', rfl⟩ : ∃ (q : Fin 800000) (k' : Fin C), j = ix2 q k' := ⟨j 0, j 1, eq_ix2 j⟩
    simp only [Finset.mem_filter, Finset.mem_univ, true_and] at hj ⊢
    exact ((rowScatter_resultIdx?_eq_some_iff d huw hiw hsd hiv idx q k' n k).1 hj).1
  · intro q _
    rfl
  · intro j hj
    obtain ⟨q, k', rfl⟩ : ∃ (q : Fin 800000) (k' : Fin C), j = ix2 q k' := ⟨j 0, j 1, eq_ix2 j⟩
    simp only [Finset.mem_filter, Finset.mem_univ, true_and] at hj
    obtain ⟨_, rfl⟩ := (rowScatter_resultIdx?_eq_some_iff d huw hiw hsd hiv idx q k' n k).1 hj
    rfl
  · intro q _
    rfl

end Cert.Gnn

end
-- ==== Proof.BridgeLemmas.lean ====
/-
  The small facts the comparison of the two spellings of a layer rests on, none of them about either program:

    • a sum over 128 or 192 contraction positions is the sum of its consecutive stretches of 64, in order;
    • two tables joined side by side read, in a column, the table that column falls in;
    • a vector made a column (or a row) and spread over a table reads the vector's entry of that row (column), a
      constant spread over any shape the constant, a vector reshaped to a column its entry;
    • a plain matrix product at an entry is the sum of the products along the contracted axis;
    • a count clamped below by one is not zero, and a quotient by a divisor that is not zero is the product with
      the divisor's reciprocal.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

open scoped BigOperators

namespace Cert.Bridge

open Idealize.ShloMosaic Idealize.ShloMosaic.ValueIdx

/-- A sum over `a + b` positions is the sum over the first `a` plus the sum over the last `b`. -/
theorem sum_fin_add (a b : Nat) (f : Fin (a + b) → EReal) :
    ∑ k, f k = (∑ k : Fin a, f ⟨k.val, by have := k.isLt; omega⟩) + ∑ k : Fin b, f ⟨a + k.val, by have := k.isLt; omega⟩ := by
  rw [Fin.sum_univ_add]
  rfl

/-- A sum over 128 positions is the sum of its two consecutive stretches of 64. -/
theorem sum128 (f : Fin 128 → EReal) :
    ∑ k, f k = (∑ k : Fin 64, f ⟨0 + k.val, by have := k.isLt; omega⟩)
      + ∑ k : Fin 64, f ⟨64 + k.val, by have := k.isLt; omega⟩ := by
  have h1 : ∑ k : Fin 128, f k = _ := sum_fin_add 64 64 f
  rw [h1]
  refine congrArg₂ (· + ·) (Finset.sum_congr rfl fun k _ => congrArg f (Fin.ext ?_)) rfl
  show k.val = 0 + k.val
  omega

/-- A sum over 192 positions is the sum of its three consecutive stretches of 64, in that order. -/
theorem sum192 (f : Fin 192 → EReal) :
    ∑ k, f k = ((∑ k : Fin 64, f ⟨0 + k.val, by have := k.isLt; omega⟩)
      + ∑ k : Fin 64, f ⟨64 + k.val, by have := k.isLt; omega⟩)
      + ∑ k : Fin 64, f ⟨128 + k.val, by have := k.isLt; omega⟩ := by
  have h1 : ∑ k : Fin 192, f k = _ := sum_fin_add 128 64 f
  rw [h1, sum128 (fun k : Fin 128 => f ⟨k.val, by have := k.isLt; omega⟩)]

/-! ## Two tables joined side by side, read at an entry -/

/-- The join of an `N × A` table and an `N × B` table along the columns reads, in a column below `A`, the first table. -/
theorem join_left {α : Type} {N A B T : Nat} (x₁ : (⟨2, ![N, A]⟩ : Shape).Idx → α) (x₂ : (⟨2, ![N, B]⟩ : Shape).Idx → α)
    (h : Shape.Concatenates [(⟨2, ![N, A]⟩ : Shape), ⟨2, ![N, B]⟩] ⟨2, ![N, T]⟩ 1)
    (n : Fin N) (k : Fin A) (kt : Fin T) (hk : kt.val = k.val) :
    concatenate (⟨2, ![N, T]⟩ : Shape) 1 [⟨⟨2, ![N, A]⟩, x₁⟩, ⟨⟨2, ![N, B]⟩, x₂⟩] h (ix2 n kt) = x₁ (ix2 n k) :=
  concatenate_pair_apply_left (1 : Fin 2) x₁ x₂ h (ix2 n kt) rfl (ix2 n k) (fun b => match b with
    | ⟨0, _⟩ => rfl
    | ⟨1, _⟩ => hk.symm)

/-- … and in column `A + k` the second table's column `k`. -/
theorem join_right {α : Type} {N A B T : Nat} (x₁ : (⟨2, ![N, A]⟩ : Shape).Idx → α) (x₂ : (⟨2, ![N, B]⟩ : Shape).Idx → α)
    (h : Shape.Concatenates [(⟨2, ![N, A]⟩ : Shape), ⟨2, ![N, B]⟩] ⟨2, ![N, T]⟩ 1)
    (n : Fin N) (k : Fin B) (kt : Fin T) (hk : kt.val = A + k.val) :
    concatenate (⟨2, ![N, T]⟩ : Shape) 1 [⟨⟨2, ![N, A]⟩, x₁⟩, ⟨⟨2, ![N, B]⟩, x₂⟩] h (ix2 n kt) = x₂ (ix2 n k) :=
  concatenate_pair_apply_right (1 : Fin 2) x₁ x₂ h (ix2 n kt) rfl rfl (ix2 n k) (fun b => match b with
    | ⟨0, _⟩ => fun _ => rfl
    | ⟨1, _⟩ => fun hne => absurd rfl hne)
    (by show k.val + A = kt.val; omega)

/-! ## Broadcasts and the column reshape, read at an entry -/

/-- A vector of length `N` (not one) made a column and then spread over `C` columns reads, at `(n, k)`, its entry `n`. -/
theorem bcast_col_apply {α : Type} {N C : Nat} (hN : N ≠ 1) (v : (⟨1, ![N]⟩ : Shape).Idx → α)
    (h₁ : (⟨1, ![N]⟩ : Shape).BroadcastsInDim ⟨2, ![N, 1]⟩ ![0])
    (h₂ : (⟨2, ![N, 1]⟩ : Shape).BroadcastsInDim ⟨2, ![N, C]⟩ ![0, 1]) (n : Fin N) (k : Fin C) :
    broadcastInDim (⟨2, ![N, C]⟩ : Shape) ![0, 1] h₂ (broadcastInDim (⟨2, ![N, 1]⟩ : Shape) ![0] h₁ v) (ix2 n k) = v (ix1 n) := by
  rw [broadcastInDim_apply _ h₂ _ (ix2 n k) (ix2 n (0 : Fin 1)) (fun a => match a with
    | ⟨0, _⟩ => by show n.val = if N = 1 then 0 else n.val; rw [if_neg hN]
    | ⟨1, _⟩ => by show 0 = if (1 : Nat) = 1 then 0 else k.val; rw [if_pos rfl])]
  exact broadcastInDim_apply _ h₁ v (ix2 n (0 : Fin 1)) (ix1 n) (fun a => match a with
    | ⟨0, _⟩ => by show n.val = if N = 1 then 0 else n.val; rw [if_neg hN])

/-- A vector of length `C` (not one) made a row and then spread over `N` rows reads, at `(n, j)`, its entry `j`. -/
theorem bcast_row_apply {α : Type} {N C : Nat} (hC : C ≠ 1) (v : (⟨1, ![C]⟩ : Shape).Idx → α)
    (h₁ : (⟨1, ![C]⟩ : Shape).BroadcastsInDim ⟨2, ![1, C]⟩ ![1])
    (h₂ : (⟨2, ![1, C]⟩ : Shape).BroadcastsInDim ⟨2, ![N, C]⟩ ![0, 1]) (n : Fin N) (j : Fin C) :
    broadcastInDim (⟨2, ![N, C]⟩ : Shape) ![0, 1] h₂ (broadcastInDim (⟨2, ![1, C]⟩ : Shape) ![1] h₁ v) (ix2 n j) = v (ix1 j) := by
  rw [broadcastInDim_apply _ h₂ _ (ix2 n j) (ix2 (0 : Fin 1) j) (fun a => match a with
    | ⟨0, _⟩ => by show 0 = if (1 : Nat) = 1 then 0 else n.val; rw [if_pos rfl]
    | ⟨1, _⟩ => by show j.val = if C = 1 then 0 else j.val; rw [if_neg hC])]
  exact broadcastInDim_apply _ h₁ v (ix2 (0 : Fin 1) j) (ix1 j) (fun a => match a with
    | ⟨0, _⟩ => by show j.val = if C = 1 then 0 else j.val; rw [if_neg hC])

/-- A constant spread over any shape reads the constant's value everywhere. -/
theorem bcast_const_apply {T : Shape} (h : (⟨0, ![]⟩ : Shape).BroadcastsInDim T ![]) (bits : BitVec 32) (i : T.Idx) :
    broadcastInDim T ![] h (constant (F := Ideal) (⟨0, ![]⟩ : Shape) .f32 bits) i = Ideal.ofBits .f32 bits := by
  rw [broadcastInDim_scalar_apply]
  rfl

/-- A vector of length `N` reshaped to an `N × 1` column reads, at `(n, 0)`, its entry `n`. -/
theorem shapeCast_a_a1_apply {α : Type} {N : Nat} (x : (⟨1, ![N]⟩ : Shape).Idx → α)
    (h : (⟨1, ![N]⟩ : Shape).ShapeCasts ⟨2, ![N, 1]⟩) (n : Fin N) (u : Fin 1) :
    shapeCast (⟨2, ![N, 1]⟩ : Shape) x h (ix2 n u) = x (ix1 n) :=
  shapeCast_apply x h _ _ (by
    have hu : u.val = 0 := by omega
    rw [Shape.rowMajor_val_two, Shape.rowMajor_val_one]
    show n.val = n.val * 1 + u.val
    rw [hu, Nat.mul_one, Nat.add_zero])

/-! ## A plain matrix product, read at an entry -/

/-- The host's `M × K` by `K × N` product (the left table's columns contracted with the right table's rows, no batch
    axes) at entry `(m, j)` is the sum over `k` of the left entry `(m, k)` times the right entry `(k, j)`. -/
theorem dot_rows {M K N : Nat} {φ₁ φ₂ : FTy} (D : DotDims ⟨2, ![M, K]⟩ ⟨2, ![K, N]⟩ ⟨2, ![M, N]⟩)
    (hlc : D.lhsContracting = [(1 : Fin 2)]) (hrc : D.rhsContracting = [(0 : Fin 2)])
    (hln : D.lhsNonContracting = [(0 : Fin 2)]) (hrn : D.rhsNonContracting = [(1 : Fin 2)])
    (hlb : D.lhsBatch = []) (hrb : D.rhsBatch = [])
    (prec : Option ContractPrecision) (sched : HostSchedule)
    (lhs : FVec Ideal ⟨2, ![M, K]⟩ φ₁) (rhs : FVec Ideal ⟨2, ![K, N]⟩ φ₂) (m : Fin M) (j : Fin N) :
    FloatOps.dotGeneral D prec sched lhs rhs (ix2 m j) = ∑ k : Fin K, lhs (ix2 m k) * rhs (ix2 k j) := by
  obtain ⟨lc, rc, ln, rn, lb, rb, wf⟩ := D
  simp only at hlc hrc hln hrn hlb hrb
  subst hlc hrc hln hrn hlb hrb
  -- the contraction shape has one axis, of extent K: re-index the sum by its one coordinate
  rw [Ideal.dotGeneral_apply, ← Equiv.sum_comp (ValueIdx.contrEquiv1 _ K rfl rfl).symm]
  refine Finset.sum_congr rfl fun k _ => ?_
  have hk := ValueIdx.contrEquiv1_symm_val (⟨[1], [0], [0], [1], [], [], wf⟩ : DotDims ⟨2, ![M, K]⟩ ⟨2, ![K, N]⟩ ⟨2, ![M, N]⟩) K rfl rfl k
  -- the left index is (m, k): axis 0 is the free axis, axis 1 the contracted one
  have el : DotDims.lhsIdx (⟨[1], [0], [0], [1], [], [], wf⟩ : DotDims ⟨2, ![M, K]⟩ ⟨2, ![K, N]⟩ ⟨2, ![M, N]⟩) (ix2 m j)
      ((ValueIdx.contrEquiv1 _ K rfl rfl).symm k) = ix2 m k := funext fun a => Fin.ext (by
    match a with
    | ⟨0, _⟩ =>
      unfold DotDims.lhsIdx
      rw [dif_neg (by simp), dif_pos (by simp)]
      rfl
    | ⟨1, _⟩ => exact (DotDims.lhsIdx_val_of_single _ rfl _ _).trans hk)
  -- the right index is (k, j): axis 0 is the contracted axis, axis 1 the free one
  have er : DotDims.rhsIdx (⟨[1], [0], [0], [1], [], [], wf⟩ : DotDims ⟨2, ![M, K]⟩ ⟨2, ![K, N]⟩ ⟨2, ![M, N]⟩) (ix2 m j)
      ((ValueIdx.contrEquiv1 _ K rfl rfl).symm k) = ix2 k j := funext fun a => Fin.ext (by
    match a with
    | ⟨0, _⟩ => exact (DotDims.rhsIdx_val_of_single _ rfl _ _).trans hk
    | ⟨1, _⟩ =>
      unfold DotDims.rhsIdx
      rw [dif_neg (by simp), dif_pos (by simp)]
      rfl)
  rw [el, er]

/-! ## The quotient by a clamped count -/

/-- A number clamped below by one is not zero. -/
theorem max_one_ne_zero (x : EReal) : max x (Ideal.ofBits .f32 0x3F800000#32) ≠ 0 := by
  rw [Ideal.ofBits_one_f32]
  have h1 : (1 : EReal) ≤ max x 1 := le_max_right _ _
  intro e
  rw [e] at h1
  exact absurd h1 (by simp)

/-- For a divisor that is not zero, the quotient is the product with the reciprocal `1 / c`. -/
theorem div_eq_mul_recip (x c : EReal) (hc : c ≠ 0) :
    Ideal.div x c = x * Ideal.div (Ideal.ofBits .f32 0x3F800000#32) c := by
  rw [Ideal.ofBits_one_f32, Ideal.mul_one_div hc]

end Cert.Bridge

end
-- ==== Proof.Bridge.lean ====
/-
  One layer, as each program spells it, and the two spellings are one function.

  THE KERNEL'S PROGRAM prepares, on the host, the gathered source rows, their sums and the edge rows' sums over the
  incoming edges of each node (two 64-column accumulating scatters), and the column of reciprocal clamped
  in-degrees; its node kernel then computes the node update of Proof/Spec.lean from them, and its edge kernel the
  edge update from the two gathered endpoint tables.

  THE REFERENCE joins the gathered source rows and the edge rows side by side into 128 columns, scatters that once,
  DIVIDES by the clamped in-degree, joins the old node table in front (192 columns) and contracts once with the
  192×64 weights; for the edges it joins the two gathered endpoint tables (128 columns) and contracts once.

  They agree entry by entry on the extended reals:
    • the scatter sums, for an entry in column k, the updates whose row number is the entry's row; the column
      does not choose the updates, so the 128-column scatter is the two 64-column scatters side by side;
    • the clamped in-degree c is at least one, so c ≠ 0, and then x / c = x · c⁻¹ = x · (1 / c);
    • a sum over 192 (or 128) contraction positions is the sum of its three (two) consecutive stretches of 64,
      in that order: only associativity of the extended reals' addition, which holds without any finiteness.
-/
import proofs.«416435_j22230750724513_4_alg».proof.Proof.Gen.KernelIdeal
import proofs.«416435_j22230750724513_4_alg».proof.Proof.Gen.ReferenceIdeal
import proofs.«416435_j22230750724513_4_alg».proof.Proof.Spec
import proofs.«416435_j22230750724513_4_alg».proof.Proof.Scatter
import proofs.«416435_j22230750724513_4_alg».proof.Proof.BridgeLemmas
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Bridge

open Idealize.ShloMosaic Idealize.ShloMosaic.ValueIdx

/-! ## The kernel's program's spelling -/
section K
open Cert.KernelIdeal Cert.KernelIdeal.Facts₀ Cert.KernelIdeal.Facts

/-- Row numbers as a gather's start-index column: a negative number counts from the table's end. -/
def wrapColK (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- Row numbers as a scatter's index column, as given. -/
def rawColK (x : IVec S800000 32) : IVec S800000x1 32 :=
  broadcastInDim S800000x1 ![0] bcast_S800000_S800000x1_0 x

/-- The rows of a node table named by a start-index column. -/
def rowsK (h : FVec Ideal S50000x64 .f32) (i : IVec S800000x1 32) : FVec Ideal S800000x64 .f32 :=
  Host.gather gather_S50000x64_S800000x1_S800000x64_1_0_n_n_0_1_164 h i

/-- Per node, the sum of the update rows whose row number is that node (64 columns). -/
def sumRowsK (i : IVec S800000x1 32) (u : FVec Ideal S800000x64 .f32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32)) i u

/-- The in-degree, clamped below by one. -/
def degK (x3 : IVec S800000 32) : FVec Ideal S50000 .f32 :=
  maximumf (F := Ideal)
    (Host.scatterAdd (F := Ideal) scatter_S50000_S800000x1_S800000_n_0_0_1
      (broadcastInDim S50000 ![] bcast_S_S50000 (constant (F := Ideal) S_ .f32 0x00000000#32)) (rawColK x3)
      (broadcastInDim S800000 ![] bcast_S_S800000 (constant (F := Ideal) S_ .f32 0x3F800000#32)))
    (broadcastInDim S50000 ![] bcast_S_S50000 (constant (F := Ideal) S_ .f32 0x3F800000#32))

/-- The column of reciprocals of the clamped in-degree. -/
def rdegK (x3 : IVec S800000 32) : FVec Ideal S50000x1 .f32 :=
  shapeCast S50000x1
    (Host.divf (F := Ideal) (broadcastInDim S50000 ![] bcast_S_S50000 (constant (F := Ideal) S_ .f32 0x3F800000#32)) (degK x3))
    shapeCasts_S50000_S50000x1

/-- A layer's node table, the kernel's way. -/
def nodeK (h : FVec Ideal S50000x64 .f32) (e : FVec Ideal S800000x64 .f32) (x2 x3 : IVec S800000 32)
    (w : FVec Ideal S192x64 .f32) (b : FVec Ideal S64 .f32) : FVec Ideal S50000x64 .f32 :=
  Cert.Gnn.nodeUpd h (sumRowsK (rawColK x3) (rowsK h (wrapColK x2))) (sumRowsK (rawColK x3) e) (rdegK x3) w b

/-- A layer's edge table from the layer's new node table, the kernel's way. -/
def edgeK (h : FVec Ideal S50000x64 .f32) (x2 x3 : IVec S800000 32)
    (w : FVec Ideal S128x64 .f32) (b : FVec Ideal S64 .f32) : FVec Ideal S800000x64 .f32 :=
  Cert.Gnn.edgeUpd (rowsK h (wrapColK x2)) (rowsK h (wrapColK x3)) w b

end K

/-! ## The reference's spelling -/
section R
open Cert.ReferenceIdeal Cert.ReferenceIdeal.Facts₀ Cert.ReferenceIdeal.Facts

def wrapColR (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

def rawColR (x : IVec S800000 32) : IVec S800000x1 32 :=
  broadcastInDim S800000x1 ![0] bcast_S800000_S800000x1_0 x

def rowsR (h : FVec Ideal S50000x64 .f32) (i : IVec S800000x1 32) : FVec Ideal S800000x64 .f32 :=
  Host.gather gather_S50000x64_S800000x1_S800000x64_1_0_n_n_0_1_164 h i

def degR (x3 : IVec S800000 32) : FVec Ideal S50000 .f32 :=
  maximumf (F := Ideal)
    (Host.scatterAdd (F := Ideal) scatter_S50000_S800000x1_S800000_n_0_0_1
      (broadcastInDim S50000 ![] bcast_S_S50000 (constant (F := Ideal) S_ .f32 0x00000000#32)) (rawColR x3)
      (broadcastInDim S800000 ![] bcast_S_S800000 (constant (F := Ideal) S_ .f32 0x3F800000#32)))
    (broadcastInDim S50000 ![] bcast_S_S50000 (constant (F := Ideal) S_ .f32 0x3F800000#32))

/-- A layer's node table, the reference's way. -/
def nodeR (h : FVec Ideal S50000x64 .f32) (e : FVec Ideal S800000x64 .f32) (x2 x3 : IVec S800000 32)
    (w : FVec Ideal S192x64 .f32) (b : FVec Ideal S64 .f32) : FVec Ideal S50000x64 .f32 :=
  maximumf (F := Ideal)
    (addf (F := Ideal)
      (Host.dotGeneral (F := Ideal) dot_S50000x192_S192x64_S50000x64_1_0_0_1_n_n none
        (concatenate S50000x192 1
          [⟨S50000x64, h⟩,
           ⟨S50000x128, Host.divf (F := Ideal)
              (Host.scatterAdd (F := Ideal) scatter_S50000x128_S800000x1_S800000x128_1_0_0_1
                (broadcastInDim S50000x128 ![] bcast_S_S50000x128 (constant (F := Ideal) S_ .f32 0x00000000#32)) (rawColR x3)
                (concatenate S800000x128 1 [⟨S800000x64, rowsR h (wrapColR x2)⟩, ⟨S800000x64, e⟩]
                  concatenates_S800000x64_S800000x64_S800000x128_d1))
              (broadcastInDim S50000x128 ![0, 1] bcast_S50000x1_S50000x128_0_1
                (broadcastInDim S50000x1 ![0] bcast_S50000_S50000x1_0 (degR x3)))⟩]
          concatenates_S50000x64_S50000x128_S50000x192_d1)
        w)
      (broadcastInDim S50000x64 ![0, 1] bcast_S1x64_S50000x64_0_1 (broadcastInDim S1x64 ![1] bcast_S64_S1x64_1 b)))
    (broadcastInDim S50000x64 ![] bcast_S_S50000x64 (constant (F := Ideal) S_ .f32 0x00000000#32))

/-- A layer's edge table from the layer's new node table, the reference's way. -/
def edgeR (h : FVec Ideal S50000x64 .f32) (x2 x3 : IVec S800000 32)
    (w : FVec Ideal S128x64 .f32) (b : FVec Ideal S64 .f32) : FVec Ideal S800000x64 .f32 :=
  maximumf (F := Ideal)
    (addf (F := Ideal)
      (Host.dotGeneral (F := Ideal) dot_S800000x128_S128x64_S800000x64_1_0_0_1_n_n none
        (concatenate S800000x128 1 [⟨S800000x64, rowsR h (wrapColR x2)⟩, ⟨S800000x64, rowsR h (wrapColR x3)⟩]
          concatenates_S800000x64_S800000x64_S800000x128_d1)
        w)
      (broadcastInDim S800000x64 ![0, 1] bcast_S1x64_S800000x64_0_1 (broadcastInDim S1x64 ![1] bcast_S64_S1x64_1 b)))
    (broadcastInDim S800000x64 ![] bcast_S_S800000x64 (constant (F := Ideal) S_ .f32 0x00000000#32))

end R

/-! ## The two spellings agree -/

/-- The shared pieces are the same terms: the two programs print one set of dimension numbers and shapes. -/
theorem wrapCol_eq (x : IVec ⟨1, ![800000]⟩ 32) : wrapColR x = wrapColK x := rfl
theorem rawCol_eq (x : IVec ⟨1, ![800000]⟩ 32) : rawColR x = rawColK x := rfl
theorem rows_eq (h : Cert.Gnn.SNd.Idx → EReal) (i : IVec ⟨2, ![800000, 1]⟩ 32) : rowsR h i = rowsK h i := rfl
theorem deg_eq (x3 : IVec ⟨1, ![800000]⟩ 32) : degR x3 = degK x3 := rfl

/-! ## The pieces of a layer, read at an entry -/

/-- The host's accumulating row scatter at the ideal instance, at entry `(n, k)`: the table's own entry plus the sum
    of the update rows whose row number is `n`, in column `k`. -/
theorem scatterAdd_rows {C : Nat} (d : ScatterDims ⟨2, ![50000, C]⟩ ⟨2, ![800000, 1]⟩ ⟨2, ![800000, C]⟩)
    (huw : d.updateWindowDims = [(1 : Fin 2)]) (hiw : d.insertedWindowDims = [(0 : Fin 2)])
    (hsd : d.scatterDimsToOperandDims = [(0 : Fin 2)]) (hiv : d.indexVectorDim = 1)
    (x : FVec Ideal ⟨2, ![50000, C]⟩ .f32) (idx : IVec ⟨2, ![800000, 1]⟩ 32)
    (upd : FVec Ideal ⟨2, ![800000, C]⟩ .f32) (n : Fin 50000) (k : Fin C) :
    Host.scatterAdd (F := Ideal) d x idx upd (ix2 n k)
      = x (ix2 n k) + ∑ q ∈ Cert.Gnn.landsOn idx n, upd (ix2 q k) :=
  Cert.Gnn.hostScatterAdd_rows d huw hiw hsd hiv x idx upd n k

section KLemmas
open Cert.KernelIdeal Cert.KernelIdeal.Facts₀ Cert.KernelIdeal.Facts

/-- The kernel's 64-column sums at entry `(n, k)`: zero plus the sum of the update rows landing on `n`, in column `k`. -/
theorem sumRowsK_apply (idx : IVec S800000x1 32) (u : FVec Ideal S800000x64 .f32) (n : Fin 50000) (k : Fin 64) :
    sumRowsK idx u (ix2 n k)
      = Ideal.ofBits .f32 0x00000000#32 + ∑ q ∈ Cert.Gnn.landsOn idx n, u (ix2 q k) := by
  unfold sumRowsK
  rw [scatterAdd_rows _ rfl rfl rfl rfl, bcast_const_apply]

/-- The clamped in-degree is at least one, so it is not zero. -/
theorem degK_ne_zero (x3 : IVec S800000 32) (n : Fin 50000) : degK x3 (ix1 n) ≠ 0 := by
  unfold degK
  rw [maximumf_apply, bcast_const_apply]
  exact max_one_ne_zero _

/-- The kernel's reciprocal column at row `n`: one divided by the clamped in-degree of `n`. -/
theorem rdegK_apply (x3 : IVec S800000 32) (n : Fin 50000) :
    rdegK x3 (ix2 n (0 : Fin 1)) = Ideal.div (Ideal.ofBits .f32 0x3F800000#32) (degK x3 (ix1 n)) := by
  unfold rdegK
  rw [shapeCast_a_a1_apply, hostDivf_apply, bcast_const_apply]

end KLemmas

section RLemmas
open Cert.ReferenceIdeal Cert.ReferenceIdeal.Facts₀ Cert.ReferenceIdeal.Facts

/-- The reference's joined update table: the gathered source rows and the edge rows side by side. -/
def updR (h : FVec Ideal S50000x64 .f32) (e : FVec Ideal S800000x64 .f32) (x2 : IVec S800000 32) :
    FVec Ideal S800000x128 .f32 :=
  concatenate S800000x128 1 [⟨S800000x64, rowsR h (wrapColR x2)⟩, ⟨S800000x64, e⟩]
    concatenates_S800000x64_S800000x64_S800000x128_d1

/-- Its first 64 columns are the gathered source rows … -/
theorem updR_left (h : FVec Ideal S50000x64 .f32) (e : FVec Ideal S800000x64 .f32) (x2 : IVec S800000 32)
    (q : Fin 800000) (k : Fin 64) (k' : Fin 128) (hk : k'.val = k.val) :
    updR h e x2 (ix2 q k') = rowsK h (wrapColK x2) (ix2 q k) := by
  unfold updR
  rw [join_left _ _ _ q k k' hk, rows_eq, wrapCol_eq]

/-- … and its last 64 columns the edge rows. -/
theorem updR_right (h : FVec Ideal S50000x64 .f32) (e : FVec Ideal S800000x64 .f32) (x2 : IVec S800000 32)
    (q : Fin 800000) (k : Fin 64) (k' : Fin 128) (hk : k'.val = 64 + k.val) :
    updR h e x2 (ix2 q k') = e (ix2 q k) := by
  unfold updR
  rw [join_right _ _ _ q k k' hk]

/-- The reference's quotient table: the 128-column scatter of the joined update rows, divided by the clamped
    in-degree spread over the 128 columns. -/
def quotR (h : FVec Ideal S50000x64 .f32) (e : FVec Ideal S800000x64 .f32) (x2 x3 : IVec S800000 32) :
    FVec Ideal S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32)) (rawColR x3)
      (updR h e x2))
    (broadcastInDim S50000x128 ![0, 1] bcast_S50000x1_S50000x128_0_1
      (broadcastInDim S50000x1 ![0] bcast_S50000_S50000x1_0 (degR x3)))

/-- The reference's node table is the rectified, biased product of the join of the old table and the quotient table
    with the weights. -/
theorem nodeR_eq (h : FVec Ideal S50000x64 .f32) (e : FVec Ideal S800000x64 .f32) (x2 x3 : IVec S800000 32)
    (w : FVec Ideal S192x64 .f32) (b : FVec Ideal S64 .f32) :
    nodeR h e x2 x3 w b =
      maximumf (F := Ideal)
        (addf (F := Ideal)
          (Host.dotGeneral (F := Ideal) dot_S50000x192_S192x64_S50000x64_1_0_0_1_n_n none
            (concatenate S50000x192 1 [⟨S50000x64, h⟩, ⟨S50000x128, quotR h e x2 x3⟩]
              concatenates_S50000x64_S50000x128_S50000x192_d1)
            w)
          (broadcastInDim S50000x64 ![0, 1] bcast_S1x64_S50000x64_0_1 (broadcastInDim S1x64 ![1] bcast_S64_S1x64_1 b)))
        (broadcastInDim S50000x64 ![] bcast_S_S50000x64 (constant (F := Ideal) S_ .f32 0x00000000#32)) := rfl

/-- The quotient table at entry `(n, k')`: zero plus the sum, over the update rows landing on `n`, of the joined
    update table's column `k'`, times the reciprocal of the clamped in-degree (which is not zero). -/
theorem quotR_col (h : FVec Ideal S50000x64 .f32) (e : FVec Ideal S800000x64 .f32) (x2 x3 : IVec S800000 32)
    (n : Fin 50000) (k' : Fin 128) :
    quotR h e x2 x3 (ix2 n k')
      = (Ideal.ofBits .f32 0x00000000#32 + ∑ q ∈ Cert.Gnn.landsOn (rawColK x3) n, updR h e x2 (ix2 q k'))
        * Ideal.div (Ideal.ofBits .f32 0x3F800000#32) (degK x3 (ix1 n)) := by
  unfold quotR
  rw [hostDivf_apply, bcast_col_apply (by decide), scatterAdd_rows _ rfl rfl rfl rfl, bcast_const_apply, deg_eq,
    rawCol_eq, div_eq_mul_recip _ _ (degK_ne_zero x3 n)]

/-- In its first 64 columns the quotient table is the kernel's sums of the gathered source rows times the kernel's
    reciprocal column … -/
theorem quotR_src (h : FVec Ideal S50000x64 .f32) (e : FVec Ideal S800000x64 .f32) (x2 x3 : IVec S800000 32)
    (n : Fin 50000) (k : Fin 64) (k' : Fin 128) (hk : k'.val = k.val) :
    quotR h e x2 x3 (ix2 n k')
      = sumRowsK (rawColK x3) (rowsK h (wrapColK x2)) (ix2 n k) * rdegK x3 (ix2 n (0 : Fin 1)) := by
  rw [quotR_col, sumRowsK_apply, rdegK_apply,
    Finset.sum_congr rfl (fun q _ => updR_left h e x2 q k k' hk)]

/-- … and in its last 64 columns the kernel's sums of the edge rows times that column. -/
theorem quotR_edge (h : FVec Ideal S50000x64 .f32) (e : FVec Ideal S800000x64 .f32) (x2 x3 : IVec S800000 32)
    (n : Fin 50000) (k : Fin 64) (k' : Fin 128) (hk : k'.val = 64 + k.val) :
    quotR h e x2 x3 (ix2 n k')
      = sumRowsK (rawColK x3) e (ix2 n k) * rdegK x3 (ix2 n (0 : Fin 1)) := by
  rw [quotR_col, sumRowsK_apply, rdegK_apply,
    Finset.sum_congr rfl (fun q _ => updR_right h e x2 q k k' hk)]

end RLemmas

/-- The node table of a layer: the reference's one scatter, quotient and 192-wide contraction is the kernel's
    node update of the two scatters and the reciprocal column. -/
theorem node_eq (h : Cert.Gnn.SNd.Idx → EReal) (e : Cert.Gnn.SEd.Idx → EReal) (x2 x3 : IVec ⟨1, ![800000]⟩ 32)
    (w : Cert.Gnn.SWn.Idx → EReal) (b : Cert.Gnn.SB.Idx → EReal) :
    nodeR h e x2 x3 w b = nodeK h e x2 x3 w b := by
  funext i
  obtain ⟨n, j, rfl⟩ : ∃ (n : Fin 50000) (j : Fin 64), i = ix2 n j := ⟨i 0, i 1, eq_ix2 i⟩
  unfold nodeK
  rw [Cert.Gnn.nodeUpd_ix2, nodeR_eq]
  unfold Cert.Gnn.nodeAt
  -- the rectifier, the bias and the product, read at entry (n, j)
  rw [maximumf_apply, addf_apply, bcast_const_apply, bcast_row_apply (by decide)]
  simp only [Host.dotGeneral]
  -- the 192 contraction positions are three stretches of 64: the old table, then the quotient table's two halves
  rw [dot_rows _ rfl rfl rfl rfl rfl rfl, sum192]
  refine congrArg₂ max (congrArg₂ (· + ·) (congrArg₂ (· + ·) (congrArg₂ (· + ·)
    (Finset.sum_congr rfl fun k _ => ?_) (Finset.sum_congr rfl fun k _ => ?_))
    (Finset.sum_congr rfl fun k _ => ?_)) rfl) rfl
  · rw [join_left _ _ _ n k _ (Nat.zero_add _)]
  · rw [join_right _ _ _ n (⟨k.val, by have := k.isLt; omega⟩ : Fin 128) _ rfl,
      quotR_src h e x2 x3 n k _ rfl]
  · rw [join_right _ _ _ n (⟨64 + k.val, by have := k.isLt; omega⟩ : Fin 128) _ (by show 128 + k.val = 64 + (64 + k.val); omega),
      quotR_edge h e x2 x3 n k _ rfl]

/-- The edge table of a layer: the reference's 128-wide contraction of the joined endpoint tables is the kernel's
    edge update of the two tables. -/
theorem edge_eq (h : Cert.Gnn.SNd.Idx → EReal) (x2 x3 : IVec ⟨1, ![800000]⟩ 32)
    (w : Cert.Gnn.SWe.Idx → EReal) (b : Cert.Gnn.SB.Idx → EReal) :
    edgeR h x2 x3 w b = edgeK h x2 x3 w b := by
  funext i
  obtain ⟨q, j, rfl⟩ : ∃ (q : Fin 800000) (j : Fin 64), i = ix2 q j := ⟨i 0, i 1, eq_ix2 i⟩
  unfold edgeK
  rw [Cert.Gnn.edgeUpd_ix2]
  unfold Cert.Gnn.edgeAt edgeR
  -- the rectifier, the bias and the product, read at entry (q, j)
  rw [maximumf_apply, addf_apply, bcast_const_apply, bcast_row_apply (by decide)]
  simp only [Host.dotGeneral]
  -- the 128 contraction positions are two stretches of 64: the first reads the first endpoint's rows, the second the second's
  rw [dot_rows _ rfl rfl rfl rfl rfl rfl, sum128]
  refine congrArg₂ max (congrArg₂ (· + ·) (congrArg₂ (· + ·)
    (Finset.sum_congr rfl fun k _ => ?_) (Finset.sum_congr rfl fun k _ => ?_)) rfl) rfl
  · rw [join_left _ _ _ q k _ (Nat.zero_add _), rows_eq, wrapCol_eq]
  · rw [join_right _ _ _ q k _ rfl, rows_eq, wrapCol_eq]

/-! ## Two layers -/

/-- The final node table, the kernel's way: the second layer's node update of the first layer's two tables. -/
def outNodeK (a0 : Cert.Gnn.SNd.Idx → EReal) (a1 : Cert.Gnn.SEd.Idx → EReal) (a2 a3 : IVec ⟨1, ![800000]⟩ 32)
    (a4 : Cert.Gnn.SWn.Idx → EReal) (a5 : Cert.Gnn.SB.Idx → EReal) (a6 : Cert.Gnn.SWe.Idx → EReal) (a7 : Cert.Gnn.SB.Idx → EReal)
    (a8 : Cert.Gnn.SWn.Idx → EReal) (a9 : Cert.Gnn.SB.Idx → EReal) : Cert.Gnn.SNd.Idx → EReal :=
  nodeK (nodeK a0 a1 a2 a3 a4 a5) (edgeK (nodeK a0 a1 a2 a3 a4 a5) a2 a3 a6 a7) a2 a3 a8 a9

/-- The final edge table, the kernel's way: the second layer's edge update of the final node table. -/
def outEdgeK (a0 : Cert.Gnn.SNd.Idx → EReal) (a1 : Cert.Gnn.SEd.Idx → EReal) (a2 a3 : IVec ⟨1, ![800000]⟩ 32)
    (a4 : Cert.Gnn.SWn.Idx → EReal) (a5 : Cert.Gnn.SB.Idx → EReal) (a6 : Cert.Gnn.SWe.Idx → EReal) (a7 : Cert.Gnn.SB.Idx → EReal)
    (a8 : Cert.Gnn.SWn.Idx → EReal) (a9 : Cert.Gnn.SB.Idx → EReal) (a10 : Cert.Gnn.SWe.Idx → EReal) (a11 : Cert.Gnn.SB.Idx → EReal) :
    Cert.Gnn.SEd.Idx → EReal :=
  edgeK (outNodeK a0 a1 a2 a3 a4 a5 a6 a7 a8 a9) a2 a3 a10 a11

/-- The final node table, the reference's way. -/
def outNodeR (a0 : Cert.Gnn.SNd.Idx → EReal) (a1 : Cert.Gnn.SEd.Idx → EReal) (a2 a3 : IVec ⟨1, ![800000]⟩ 32)
    (a4 : Cert.Gnn.SWn.Idx → EReal) (a5 : Cert.Gnn.SB.Idx → EReal) (a6 : Cert.Gnn.SWe.Idx → EReal) (a7 : Cert.Gnn.SB.Idx → EReal)
    (a8 : Cert.Gnn.SWn.Idx → EReal) (a9 : Cert.Gnn.SB.Idx → EReal) : Cert.Gnn.SNd.Idx → EReal :=
  nodeR (nodeR a0 a1 a2 a3 a4 a5) (edgeR (nodeR a0 a1 a2 a3 a4 a5) a2 a3 a6 a7) a2 a3 a8 a9

/-- The final edge table, the reference's way. -/
def outEdgeR (a0 : Cert.Gnn.SNd.Idx → EReal) (a1 : Cert.Gnn.SEd.Idx → EReal) (a2 a3 : IVec ⟨1, ![800000]⟩ 32)
    (a4 : Cert.Gnn.SWn.Idx → EReal) (a5 : Cert.Gnn.SB.Idx → EReal) (a6 : Cert.Gnn.SWe.Idx → EReal) (a7 : Cert.Gnn.SB.Idx → EReal)
    (a8 : Cert.Gnn.SWn.Idx → EReal) (a9 : Cert.Gnn.SB.Idx → EReal) (a10 : Cert.Gnn.SWe.Idx → EReal) (a11 : Cert.Gnn.SB.Idx → EReal) :
    Cert.Gnn.SEd.Idx → EReal :=
  edgeR (outNodeR a0 a1 a2 a3 a4 a5 a6 a7 a8 a9) a2 a3 a10 a11

/-- Layer by layer the two ways agree, so the final node tables do. -/
theorem outNode_eq (a0 : Cert.Gnn.SNd.Idx → EReal) (a1 : Cert.Gnn.SEd.Idx → EReal) (a2 a3 : IVec ⟨1, ![800000]⟩ 32)
    (a4 : Cert.Gnn.SWn.Idx → EReal) (a5 : Cert.Gnn.SB.Idx → EReal) (a6 : Cert.Gnn.SWe.Idx → EReal) (a7 : Cert.Gnn.SB.Idx → EReal)
    (a8 : Cert.Gnn.SWn.Idx → EReal) (a9 : Cert.Gnn.SB.Idx → EReal) :
    outNodeR a0 a1 a2 a3 a4 a5 a6 a7 a8 a9 = outNodeK a0 a1 a2 a3 a4 a5 a6 a7 a8 a9 := by
  unfold outNodeR outNodeK
  rw [node_eq a0 a1 a2 a3 a4 a5, edge_eq, node_eq]

/-- … and so do the final edge tables. -/
theorem outEdge_eq (a0 : Cert.Gnn.SNd.Idx → EReal) (a1 : Cert.Gnn.SEd.Idx → EReal) (a2 a3 : IVec ⟨1, ![800000]⟩ 32)
    (a4 : Cert.Gnn.SWn.Idx → EReal) (a5 : Cert.Gnn.SB.Idx → EReal) (a6 : Cert.Gnn.SWe.Idx → EReal) (a7 : Cert.Gnn.SB.Idx → EReal)
    (a8 : Cert.Gnn.SWn.Idx → EReal) (a9 : Cert.Gnn.SB.Idx → EReal) (a10 : Cert.Gnn.SWe.Idx → EReal) (a11 : Cert.Gnn.SB.Idx → EReal) :
    outEdgeR a0 a1 a2 a3 a4 a5 a6 a7 a8 a9 a10 a11 = outEdgeK a0 a1 a2 a3 a4 a5 a6 a7 a8 a9 a10 a11 := by
  unfold outEdgeR outEdgeK
  rw [outNode_eq, edge_eq]

end Cert.Bridge

end
-- ==== Proof.KWalk.lean ====
/-
  Which buffers each item of the kernel's program leaves as it found them.

  A host stretch changes only the buffers its operations write; a region changes only its one output array (its inputs
  are staged, read and left in place, and every buffer that is not one of its arrays is not touched). So an argument of
  @main holds its launch contents at every boundary, and a region's output holds what the region left until the run ends.
-/
import proofs.«416435_j22230750724513_4_alg».proof.Proof.Gen.KernelIdeal.Frame

set_option maxRecDepth 16384

noncomputable section

namespace Cert.KernelIdeal.KWalk

open Cert.KernelIdeal Cert.KernelIdeal.Gen Cert.KernelIdeal.Facts₀ Cert.KernelIdeal.Facts
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the named stretch writes the buffer in the goal `after ops W b = W b`: each operation's one written
    buffer is another buffer of @main. -/
macro "stretch_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The twelve arguments of @main. -/
def argRefs : List (Ref sig .tc) :=
  [main_arg0, main_arg1, main_arg2, main_arg3, main_arg4, main_arg5, main_arg6, main_arg7, main_arg8, main_arg9, main_arg10, main_arg11]

/-- An argument is none of the four regions' outputs. -/
theorem arg_ne_out {b : Ref sig .tc} (hb : b ∈ argRefs) : b ≠ main_v22 ∧ b ≠ main_v37 ∧ b ≠ main_v60 ∧ b ≠ main_v75 := by
  simp only [argRefs, List.mem_cons, List.not_mem_nil, or_false] at hb
  rcases hb with rfl | rfl | rfl | rfl | rfl | rfl | rfl | rfl | rfl | rfl | rfl | rfl <;> decide

/-! ## The regions -/

/-- Region 0 leaves every buffer but its output as entered. -/
theorem W2_keep (c : Dev nD) (b : Ref sig .tc) (hb : b ≠ main_v22) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact ((dat0 (V1 m ρ) c).arrAt_in 2 rfl _).trans (A_eq0 (V1 m ρ) c 2)
    | ⟨3, _⟩ => exact ((dat0 (V1 m ρ) c).arrAt_in 3 rfl _).trans (A_eq0 (V1 m ρ) c 3)
    | ⟨4, _⟩ => exact ((dat0 (V1 m ρ) c).arrAt_in 4 rfl _).trans (A_eq0 (V1 m ρ) c 4)
    | ⟨5, _⟩ => exact ((dat0 (V1 m ρ) c).arrAt_in 5 rfl _).trans (A_eq0 (V1 m ρ) c 5)
    | ⟨6, _⟩ => exact absurd rfl hb
  · exact W2_of_ne m ρ c b fun w e => h ⟨w, e⟩

/-- Region 1 leaves every buffer but its output as entered. -/
theorem W4_keep (c : Dev nD) (b : Ref sig .tc) (hb : b ≠ main_v37) :
    W4 m ρ c (Proc.devRef .tc b) = W3 m ρ c (Proc.devRef .tc b) := by
  by_cases h : ∃ w, Pipeline.arrRef spec1 w = b
  · obtain ⟨w, rfl⟩ := h
    rw [W4_arr]
    match w with
    | ⟨0, _⟩ => exact ((dat1 (V3 m ρ) c).arrAt_in 0 rfl _).trans (A_eq1 (V3 m ρ) c 0)
    | ⟨1, _⟩ => exact ((dat1 (V3 m ρ) c).arrAt_in 1 rfl _).trans (A_eq1 (V3 m ρ) c 1)
    | ⟨2, _⟩ => exact ((dat1 (V3 m ρ) c).arrAt_in 2 rfl _).trans (A_eq1 (V3 m ρ) c 2)
    | ⟨3, _⟩ => exact ((dat1 (V3 m ρ) c).arrAt_in 3 rfl _).trans (A_eq1 (V3 m ρ) c 3)
    | ⟨4, _⟩ => exact absurd rfl hb
  · exact W4_of_ne m ρ c b fun w e => h ⟨w, e⟩

/-- Region 2 leaves every buffer but its output as entered. -/
theorem W6_keep (c : Dev nD) (b : Ref sig .tc) (hb : b ≠ main_v60) :
    W6 m ρ c (Proc.devRef .tc b) = W5 m ρ c (Proc.devRef .tc b) := by
  by_cases h : ∃ w, Pipeline.arrRef spec2 w = b
  · obtain ⟨w, rfl⟩ := h
    rw [W6_arr]
    match w with
    | ⟨0, _⟩ => exact ((dat2 (V5 m ρ) c).arrAt_in 0 rfl _).trans (A_eq2 (V5 m ρ) c 0)
    | ⟨1, _⟩ => exact ((dat2 (V5 m ρ) c).arrAt_in 1 rfl _).trans (A_eq2 (V5 m ρ) c 1)
    | ⟨2, _⟩ => exact ((dat2 (V5 m ρ) c).arrAt_in 2 rfl _).trans (A_eq2 (V5 m ρ) c 2)
    | ⟨3, _⟩ => exact ((dat2 (V5 m ρ) c).arrAt_in 3 rfl _).trans (A_eq2 (V5 m ρ) c 3)
    | ⟨4, _⟩ => exact ((dat2 (V5 m ρ) c).arrAt_in 4 rfl _).trans (A_eq2 (V5 m ρ) c 4)
    | ⟨5, _⟩ => exact ((dat2 (V5 m ρ) c).arrAt_in 5 rfl _).trans (A_eq2 (V5 m ρ) c 5)
    | ⟨6, _⟩ => exact absurd rfl hb
  · exact W6_of_ne m ρ c b fun w e => h ⟨w, e⟩

/-- Region 3 leaves every buffer but its output as entered. -/
theorem W8_keep (c : Dev nD) (b : Ref sig .tc) (hb : b ≠ main_v75) :
    W8 m ρ c (Proc.devRef .tc b) = W7 m ρ c (Proc.devRef .tc b) := by
  by_cases h : ∃ w, Pipeline.arrRef spec3 w = b
  · obtain ⟨w, rfl⟩ := h
    rw [W8_arr]
    match w with
    | ⟨0, _⟩ => exact ((dat3 (V7 m ρ) c).arrAt_in 0 rfl _).trans (A_eq3 (V7 m ρ) c 0)
    | ⟨1, _⟩ => exact ((dat3 (V7 m ρ) c).arrAt_in 1 rfl _).trans (A_eq3 (V7 m ρ) c 1)
    | ⟨2, _⟩ => exact ((dat3 (V7 m ρ) c).arrAt_in 2 rfl _).trans (A_eq3 (V7 m ρ) c 2)
    | ⟨3, _⟩ => exact ((dat3 (V7 m ρ) c).arrAt_in 3 rfl _).trans (A_eq3 (V7 m ρ) c 3)
    | ⟨4, _⟩ => exact absurd rfl hb
  · exact W8_of_ne m ρ c b fun w e => h ⟨w, e⟩

/-! ## The host stretches and the arguments -/

/-- No operation of the first stretch writes an argument. -/
theorem W1_arg_keep (c : Dev nD) {b : Ref sig .tc} (hb : b ∈ argRefs) :
    W1 m ρ c (Proc.devRef .tc b) = W0 m ρ c (Proc.devRef .tc b) := by
  simp only [argRefs, List.mem_cons, List.not_mem_nil, or_false] at hb
  rcases hb with rfl | rfl | rfl | rfl | rfl | rfl | rfl | rfl | rfl | rfl | rfl | rfl <;> stretch_keeps hostOps0

/-- No operation of the second stretch writes an argument. -/
theorem W3_arg_keep (c : Dev nD) {b : Ref sig .tc} (hb : b ∈ argRefs) :
    W3 m ρ c (Proc.devRef .tc b) = W2 m ρ c (Proc.devRef .tc b) := by
  simp only [argRefs, List.mem_cons, List.not_mem_nil, or_false] at hb
  rcases hb with rfl | rfl | rfl | rfl | rfl | rfl | rfl | rfl | rfl | rfl | rfl | rfl <;> stretch_keeps hostOps1

/-- No operation of the third stretch writes an argument. -/
theorem W5_arg_keep (c : Dev nD) {b : Ref sig .tc} (hb : b ∈ argRefs) :
    W5 m ρ c (Proc.devRef .tc b) = W4 m ρ c (Proc.devRef .tc b) := by
  simp only [argRefs, List.mem_cons, List.not_mem_nil, or_false] at hb
  rcases hb with rfl | rfl | rfl | rfl | rfl | rfl | rfl | rfl | rfl | rfl | rfl | rfl <;> stretch_keeps hostOps2

/-- No operation of the fourth stretch writes an argument. -/
theorem W7_arg_keep (c : Dev nD) {b : Ref sig .tc} (hb : b ∈ argRefs) :
    W7 m ρ c (Proc.devRef .tc b) = W6 m ρ c (Proc.devRef .tc b) := by
  simp only [argRefs, List.mem_cons, List.not_mem_nil, or_false] at hb
  rcases hb with rfl | rfl | rfl | rfl | rfl | rfl | rfl | rfl | rfl | rfl | rfl | rfl <;> stretch_keeps hostOps3

/-- At every boundary an argument holds its launch contents. -/
theorem W1_arg (c : Dev nD) {b : Ref sig .tc} (hb : b ∈ argRefs) : W1 m ρ c (Proc.devRef .tc b) = m ((c : Thread nD τ).loc b) :=
  (W1_arg_keep m ρ c hb).trans rfl
theorem W2_arg (c : Dev nD) {b : Ref sig .tc} (hb : b ∈ argRefs) : W2 m ρ c (Proc.devRef .tc b) = m ((c : Thread nD τ).loc b) :=
  (W2_keep m ρ c b (arg_ne_out hb).1).trans (W1_arg m ρ c hb)
theorem W3_arg (c : Dev nD) {b : Ref sig .tc} (hb : b ∈ argRefs) : W3 m ρ c (Proc.devRef .tc b) = m ((c : Thread nD τ).loc b) :=
  (W3_arg_keep m ρ c hb).trans (W2_arg m ρ c hb)
theorem W4_arg (c : Dev nD) {b : Ref sig .tc} (hb : b ∈ argRefs) : W4 m ρ c (Proc.devRef .tc b) = m ((c : Thread nD τ).loc b) :=
  (W4_keep m ρ c b (arg_ne_out hb).2.1).trans (W3_arg m ρ c hb)
theorem W5_arg (c : Dev nD) {b : Ref sig .tc} (hb : b ∈ argRefs) : W5 m ρ c (Proc.devRef .tc b) = m ((c : Thread nD τ).loc b) :=
  (W5_arg_keep m ρ c hb).trans (W4_arg m ρ c hb)
theorem W6_arg (c : Dev nD) {b : Ref sig .tc} (hb : b ∈ argRefs) : W6 m ρ c (Proc.devRef .tc b) = m ((c : Thread nD τ).loc b) :=
  (W6_keep m ρ c b (arg_ne_out hb).2.2.1).trans (W5_arg m ρ c hb)
theorem W7_arg (c : Dev nD) {b : Ref sig .tc} (hb : b ∈ argRefs) : W7 m ρ c (Proc.devRef .tc b) = m ((c : Thread nD τ).loc b) :=
  (W7_arg_keep m ρ c hb).trans (W6_arg m ρ c hb)

/-! ## The regions' outputs that later items read -/

/-- The first layer's node table is not written by the second stretch … -/
theorem W3_v22 (c : Dev nD) : W3 m ρ c (Proc.devRef .tc main_v22) = W2 m ρ c (Proc.devRef .tc main_v22) := by
  stretch_keeps hostOps1
/-- … nor by the third. -/
theorem W5_v22 (c : Dev nD) : W5 m ρ c (Proc.devRef .tc main_v22) = W4 m ρ c (Proc.devRef .tc main_v22) := by
  stretch_keeps hostOps2
/-- The final node table is not written by the fourth stretch. -/
theorem W7_v60 (c : Dev nD) : W7 m ρ c (Proc.devRef .tc main_v60) = W6 m ρ c (Proc.devRef .tc main_v60) := by
  stretch_keeps hostOps3

end Cert.KernelIdeal.KWalk

end
-- ==== Proof.Region0.lean ====
/-
  Region 0 of the kernel's program (a node update): after the pipeline has run over its grid, the region's output array
  holds, entry by entry, the node update of Proof/Spec.lean of the arrays the region was entered with.
-/
import proofs.«416435_j22230750724513_4_alg».proof.Proof.Gen.KernelIdeal.Frame
import proofs.«416435_j22230750724513_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region0

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The 5000×64 by 64×64 product read at an entry -/

theorem prod_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem prod_lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem prod_rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem prod_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, j) of a block of rows times a 64×64 matrix, accumulated from zero: row p against column j. -/
theorem rows_times_apply (l : FVec Ideal S5000x64 .f32) (r : FVec Ideal S64x64 .f32) (p : Fin 5000) (j : Fin 64) :
    matmul (F := Ideal) dot_S5000x64_S64x64_S5000x64_1_0_0_1_n_n none l r (constant (F := Ideal) S5000x64 .f32 0x00000000#32) (ix2 p j)
      = ∑ k : Fin 64, l (ix2 p k) * r (ix2 k j) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p j) ((ValueIdx.contrEquiv1 dot_S5000x64_S64x64_S5000x64_1_0_0_1_n_n 64 rfl rfl).symm k) = ix2 p k := funext fun a => Fin.ext (by
    match a with
    | ⟨0, _⟩ => exact prod_lhs_row _ _
    | ⟨1, _⟩ => exact (prod_lhs_col _ _).trans hk)
  have er : dot_S5000x64_S64x64_S5000x64_1_0_0_1_n_n.rhsIdx (ix2 p j) ((ValueIdx.contrEquiv1 dot_S5000x64_S64x64_S5000x64_1_0_0_1_n_n 64 rfl rfl).symm k) = ix2 k j := funext fun a => Fin.ext (by
    match a with
    | ⟨0, _⟩ => exact (prod_rhs_row _ _).trans hk
    | ⟨1, _⟩ => exact prod_rhs_col _ _)
  rw [el, er]

/-! ## The layout steps of the body read at an entry -/

/-- The in-degree column spread along a row: every column of row p reads the column's entry at row p. -/
theorem column_spread_apply (v : FVec Ideal S5000x1 .f32) (p : Fin 5000) (k : Fin 64) :
    broadcastTo S5000x64 v Gen.broadcasts_S5000x1_S5000x64 (ix2 p k) = v (ix2 p (0 : Fin 1)) := by
  refine broadcastTo_apply v Gen.broadcasts_S5000x1_S5000x64 (ix2 p k) (ix2 p (0 : Fin 1)) fun ax => ?_
  match ax with
  | ⟨0, _⟩ => rfl
  | ⟨1, _⟩ => rfl

/-- The bias row spread over the block's rows. -/
theorem bias_spread_apply (b : FVec Ideal S64 .f32) (p : Fin 5000) (j : Fin 64) :
    broadcastTo S5000x64 (shapeCast S1x64 b Gen.shapeCasts_S64_S1x64) Gen.broadcasts_S1x64_S5000x64 (ix2 p j) = b (ix1 j) :=
  (broadcastTo_1b_ab_apply (shapeCast S1x64 b Gen.shapeCasts_S64_S1x64) Gen.broadcasts_S1x64_S5000x64 p j).trans
    (shapeCast_a_1a_apply b Gen.shapeCasts_S64_S1x64 0 j)

/-- The three 64-row blocks of the weight matrix. -/
theorem weights_block0_apply (w : FVec Ideal S192x64 .f32) (k j : Fin 64) :
    extractStridedSlice S64x64 ![0, 0] w Gen.slices_S192x64_o0_0_S64x64 (ix2 k j) = w (ix2 (Cert.Gnn.wrow (R := 192) 0 (by omega) k) j) :=
  slice2_axis0_apply 0 w Gen.slices_S192x64_o0_0_S64x64 k j _ rfl
theorem weights_block1_apply (w : FVec Ideal S192x64 .f32) (k j : Fin 64) :
    extractStridedSlice S64x64 ![64, 0] w Gen.slices_S192x64_o64_0_S64x64 (ix2 k j) = w (ix2 (Cert.Gnn.wrow (R := 192) 64 (by omega) k) j) :=
  slice2_axis0_apply 64 w Gen.slices_S192x64_o64_0_S64x64 k j _ rfl
theorem weights_block2_apply (w : FVec Ideal S192x64 .f32) (k j : Fin 64) :
    extractStridedSlice S64x64 ![128, 0] w Gen.slices_S192x64_o128_0_S64x64 (ix2 k j) = w (ix2 (Cert.Gnn.wrow (R := 192) 128 (by omega) k) j) :=
  slice2_axis0_apply 128 w Gen.slices_S192x64_o128_0_S64x64 k j _ rfl

/-! ## The body's arithmetic at an entry of the block -/

theorem body_apply (r : Vec Ideal S5000x1 .f32) (s e : Vec Ideal S5000x64 .f32) (w : Vec Ideal S192x64 .f32)
    (h : Vec Ideal S5000x64 .f32) (b : Vec Ideal S64 .f32) (p : Fin 5000) (j : Fin 64) :
    k0_pay1 (F := Ideal) r s e w h b (ix2 p j)
      = max ((((∑ k : Fin 64, h (ix2 p k) * w (ix2 (Cert.Gnn.wrow (R := 192) 0 (by omega) k) j))
          + ∑ k : Fin 64, (s (ix2 p k) * r (ix2 p (0 : Fin 1))) * w (ix2 (Cert.Gnn.wrow (R := 192) 64 (by omega) k) j))
          + ∑ k : Fin 64, (e (ix2 p k) * r (ix2 p (0 : Fin 1))) * w (ix2 (Cert.Gnn.wrow (R := 192) 128 (by omega) k) j))
          + b (ix1 j)) Cert.Gnn.z0 := by
  unfold k0_pay1
  simp only [shapeCast_self]
  refine congrArg₂ max (congrArg₂ (· + ·) (congrArg₂ (· + ·) (congrArg₂ (· + ·) ?_ ?_) ?_) ?_) rfl
  · exact (rows_times_apply h _ p j).trans
      (Finset.sum_congr rfl fun k _ => congrArg (h (ix2 p k) * ·) (weights_block0_apply w k j))
  · exact (rows_times_apply _ _ p j).trans
      (Finset.sum_congr rfl fun k _ => congrArg₂ (· * ·) (congrArg (s (ix2 p k) * ·) (column_spread_apply r p k)) (weights_block1_apply w k j))
  · exact (rows_times_apply _ _ p j).trans
      (Finset.sum_congr rfl fun k _ => congrArg₂ (· * ·) (congrArg (e (ix2 p k) * ·) (column_spread_apply r p k)) (weights_block2_apply w k j))
  · exact bias_spread_apply b p j

/-! ## Where a block sits in its array

The grid has ten points. At point t the row-blocked windows (the old node table, the two summed tables, the
in-degree column and the output) hold rows 5000·t … 5000·t + 4999 of their arrays; the weights and the bias are
staged whole at every point. -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The block indices of the seven windows at a grid point, decided over the ten points. -/
theorem block_indices : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row p of the old node table's block at point t is row 5000·t + p of the table. -/
theorem old_rows_block (c : Dev nD) (t : Fin cfg0.N) (p : Fin 5000) (k : Fin 64) (n : Fin 50000)
    (hn : n.val = 5000 * t.val + p.val) :
    (iblk0 V c 0 t : Vec Ideal S5000x64 .f32) (ix2 p k) = (V c main_arg0 : S50000x64.Idx → EReal) (ix2 n k) := by
  obtain ⟨e0, e1, -⟩ := block_indices t
  show V c main_arg0 (((cfg0.win 0).blk t).view.emb (ix2 p k)) = V c main_arg0 (ix2 n k)
  refine congrArg (V c main_arg0) (funext fun a => Fin.ext ?_)
  match a with
  | ⟨0, _⟩ => show win0_0.index t (0 : Fin 2) * 5000 + 1 * p.val = n.val; omega
  | ⟨1, _⟩ => show win0_0.index t (1 : Fin 2) * 64 + 1 * k.val = k.val; omega

/-- Row p of the summed source rows' block at point t is row 5000·t + p of that table. -/
theorem source_rows_block (c : Dev nD) (t : Fin cfg0.N) (p : Fin 5000) (k : Fin 64) (n : Fin 50000)
    (hn : n.val = 5000 * t.val + p.val) :
    (iblk0 V c 1 t : Vec Ideal S5000x64 .f32) (ix2 p k) = (V c main_v9 : S50000x64.Idx → EReal) (ix2 n k) := by
  obtain ⟨-, -, e0, e1, -⟩ := block_indices t
  show V c main_v9 (((cfg0.win 1).blk t).view.emb (ix2 p k)) = V c main_v9 (ix2 n k)
  refine congrArg (V c main_v9) (funext fun a => Fin.ext ?_)
  match a with
  | ⟨0, _⟩ => show win0_1.index t (0 : Fin 2) * 5000 + 1 * p.val = n.val; omega
  | ⟨1, _⟩ => show win0_1.index t (1 : Fin 2) * 64 + 1 * k.val = k.val; omega

/-- Row p of the summed edge rows' block at point t is row 5000·t + p of that table. -/
theorem edge_rows_block (c : Dev nD) (t : Fin cfg0.N) (p : Fin 5000) (k : Fin 64) (n : Fin 50000)
    (hn : n.val = 5000 * t.val + p.val) :
    (iblk0 V c 2 t : Vec Ideal S5000x64 .f32) (ix2 p k) = (V c main_v12 : S50000x64.Idx → EReal) (ix2 n k) := by
  obtain ⟨-, -, -, -, e0, e1, -⟩ := block_indices t
  show V c main_v12 (((cfg0.win 2).blk t).view.emb (ix2 p k)) = V c main_v12 (ix2 n k)
  refine congrArg (V c main_v12) (funext fun a => Fin.ext ?_)
  match a with
  | ⟨0, _⟩ => show win0_2.index t (0 : Fin 2) * 5000 + 1 * p.val = n.val; omega
  | ⟨1, _⟩ => show win0_2.index t (1 : Fin 2) * 64 + 1 * k.val = k.val; omega

/-- Entry p of the in-degree column's block at point t is entry 5000·t + p of the column. -/
theorem degree_column_block (c : Dev nD) (t : Fin cfg0.N) (p : Fin 5000) (n : Fin 50000)
    (hn : n.val = 5000 * t.val + p.val) :
    (iblk0 V c 3 t : Vec Ideal S5000x1 .f32) (ix2 p (0 : Fin 1)) = (V c main_v21 : S50000x1.Idx → EReal) (ix2 n (0 : Fin 1)) := by
  obtain ⟨-, -, -, -, -, -, e0, e1, -⟩ := block_indices t
  show V c main_v21 (((cfg0.win 3).blk t).view.emb (ix2 p (0 : Fin 1))) = V c main_v21 (ix2 n (0 : Fin 1))
  refine congrArg (V c main_v21) (funext fun a => Fin.ext ?_)
  match a with
  | ⟨0, _⟩ => show win0_3.index t (0 : Fin 2) * 5000 + 1 * p.val = n.val; omega
  | ⟨1, _⟩ => show win0_3.index t (1 : Fin 2) * 1 + 1 * 0 = 0; omega

/-- The weights are staged whole: the block at any point is the matrix. -/
theorem weights_block (c : Dev nD) (t : Fin cfg0.N) (a : Fin 192) (j : Fin 64) :
    (iblk0 V c 4 t : Vec Ideal S192x64 .f32) (ix2 a j) = (V c main_arg4 : S192x64.Idx → EReal) (ix2 a j) := by
  obtain ⟨-, -, -, -, -, -, -, -, e0, e1, -⟩ := block_indices t
  show V c main_arg4 (((cfg0.win 4).blk t).view.emb (ix2 a j)) = V c main_arg4 (ix2 a j)
  refine congrArg (V c main_arg4) (funext fun b => Fin.ext ?_)
  match b with
  | ⟨0, _⟩ => show win0_4.index t (0 : Fin 2) * 192 + 1 * a.val = a.val; omega
  | ⟨1, _⟩ => show win0_4.index t (1 : Fin 2) * 64 + 1 * j.val = j.val; omega

/-- So is the bias. -/
theorem bias_block (c : Dev nD) (t : Fin cfg0.N) (j : Fin 64) :
    (iblk0 V c 5 t : Vec Ideal S64 .f32) (ix1 j) = (V c main_arg5 : S64.Idx → EReal) (ix1 j) := by
  obtain ⟨-, -, -, -, -, -, -, -, -, -, e0, -⟩ := block_indices t
  show V c main_arg5 (((cfg0.win 5).blk t).view.emb (ix1 j)) = V c main_arg5 (ix1 j)
  refine congrArg (V c main_arg5) (funext fun b => Fin.ext ?_)
  match b with
  | ⟨0, _⟩ => show win0_5.index t (0 : Fin 1) * 64 + 1 * j.val = j.val; omega

/-- Entry (p, j) of the output's block at point t sits at (5000·t + p, j) of the output array. -/
theorem output_block_entry (t : Fin cfg0.N) (p : Fin 5000) (j : Fin 64) (n : Fin 50000)
    (hn : n.val = 5000 * t.val + p.val) :
    (((cfg0.win 6).blk t).view.emb (ix2 p j) : S50000x64.Idx) = ix2 n j := by
  obtain ⟨-, -, -, -, -, -, -, -, -, -, -, e0, e1⟩ := block_indices t
  refine funext fun a => Fin.ext ?_
  match a with
  | ⟨0, _⟩ => show win0_6.index t (0 : Fin 2) * 5000 + 1 * p.val = n.val; omega
  | ⟨1, _⟩ => show win0_6.index t (1 : Fin 2) * 64 + 1 * j.val = j.val; omega

/-! ## What a grid point writes back -/

/-- Two functions on the 5000×64 block agree when they agree at every (row, column). -/
theorem block_ext {X Y : S5000x64.Idx → EReal} (h : ∀ (p : Fin 5000) (j : Fin 64), X (ix2 p j) = Y (ix2 p j)) : X = Y :=
  funext fun y => by rw [eq_ix2 y]; exact h _ _

/-- Point t writes back rows 5000·t … 5000·t + 4999 of the node update of the arrays the region was entered with. -/
theorem flushed_eq (c : Dev nD) (t : Fin cfg0.N) :
    (dat0 (F := Ideal) V c).flushed 6 t
      = ((cfg0.win 6).blk t).view.read (Elt Ideal)
          (Cert.Gnn.nodeUpd (V c main_arg0) (V c main_v9) (V c main_v12) (V c main_v21) (V c main_arg4) (V c main_arg5)) := by
  show (cfg0.win 6).cut (grid0.coords t) ((dat0 V c).after 6 t) = _
  rw [after0_6]
  unfold out0_6
  rw [View.canon_unit_zero zero_offsets2]
  simp only [View.ld_unit_zero (S := S5000x64) zero_offsets2, View.ld_unit_zero (S := S5000x1) zero_offsets2,
    View.ld_unit_zero (S := S192x64) zero_offsets2, View.ld_unit_zero (S := S64) zero_offsets1]
  refine block_ext fun p j => ?_
  have hN : cfg0.N = 10 := N_0
  have ht : t.val < 10 := hN ▸ t.isLt
  have hn : 5000 * t.val + p.val < 50000 := by have := p.isLt; omega
  refine (body_apply (iblk0 V c 3 t) (iblk0 V c 1 t) (iblk0 V c 2 t) (iblk0 V c 4 t) (iblk0 V c 0 t) (iblk0 V c 5 t) p j).trans ?_
  show _ = Cert.Gnn.nodeUpd (V c main_arg0) (V c main_v9) (V c main_v12) (V c main_v21) (V c main_arg4) (V c main_arg5)
      (((cfg0.win 6).blk t).view.emb (ix2 p j))
  rw [output_block_entry t p j ⟨5000 * t.val + p.val, hn⟩ rfl, Cert.Gnn.nodeUpd_ix2]
  unfold Cert.Gnn.nodeAt
  refine congrArg₂ max (congrArg₂ (· + ·) (congrArg₂ (· + ·) (congrArg₂ (· + ·)
    (Finset.sum_congr rfl fun k _ => ?_) (Finset.sum_congr rfl fun k _ => ?_)) (Finset.sum_congr rfl fun k _ => ?_)) ?_) rfl
  · exact congrArg₂ (· * ·) (old_rows_block V c t p k _ rfl) (weights_block V c t _ j)
  · exact congrArg₂ (· * ·) (congrArg₂ (· * ·) (source_rows_block V c t p k _ rfl) (degree_column_block V c t p _ rfl)) (weights_block V c t _ j)
  · exact congrArg₂ (· * ·) (congrArg₂ (· * ·) (edge_rows_block V c t p k _ rfl) (degree_column_block V c t p _ rfl)) (weights_block V c t _ j)
  · exact bias_block V c t j

/-! ## The ten blocks tile the output array -/

/-- An index of the output array is in point t's block exactly when, on each axis, its coordinate is in the block's range. -/
theorem mem_block (t : Fin cfg0.N) (i : S50000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v22).slice (win0_6.rect t)).set ↔ _
  rw [View.set_slice_whole, Rect.mem_set_unit]
  exact Iff.rfl

/-- Row n of the output belongs to the block of point n / 5000, and every point writes its block back. -/
theorem rows_covered (i : S50000x64.Idx) :
    ∃ t : Fin cfg0.N, (cfg0.win 6).flush t = true ∧ i ∈ ((cfg0.win 6).blk t).view.set := by
  have hN : cfg0.N = 10 := N_0
  have hi0 : (i 0).val < 50000 := (i 0).isLt
  have hi1 : (i 1).val < 64 := (i 1).isLt
  obtain ⟨t, ht⟩ : ∃ t : Fin cfg0.N, t.val = (i 0).val / 5000 := ⟨⟨(i 0).val / 5000, by rw [hN]; omega⟩, rfl⟩
  obtain ⟨-, -, -, -, -, -, -, -, -, -, -, e0, e1⟩ := block_indices t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 64 ≤ (i 1).val ∧ (i 1).val < win0_6.index t (1 : Fin 2) * 64 + 64
    omega

/-- The output array after the region's last write-back is the node update of the arrays as the region found them. -/
theorem final (c : Dev nD) :
    (dat0 (F := Ideal) V c).arrAt 6 cfg0.N
      = Cert.Gnn.nodeUpd (V c main_arg0) (V c main_v9) (V c main_v12) (V c main_v21) (V c main_arg4) (V c main_arg5) :=
  (dat0 (F := Ideal) V c).arrAt_eq_of_cover 6
    (Cert.Gnn.nodeUpd (V c main_arg0) (V c main_v9) (V c main_v12) (V c main_v21) (V c main_arg4) (V c main_arg5))
    (fun t _ => flushed_eq V c t) rows_covered

end Cert.KernelIdeal.Region0

end
-- ==== Proof.Region1.lean ====
/-
  Region 1 of the kernel's program (a edge update): after the pipeline has run over its grid, the region's output array
  holds, entry by entry, the edge update of Proof/Spec.lean of the arrays the region was entered with.
-/
import proofs.«416435_j22230750724513_4_alg».proof.Proof.Gen.KernelIdeal.Frame
import proofs.«416435_j22230750724513_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region1

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

/-! ## One product of the body: a block of rows times a 64 × 64 matrix -/

/-- On the left operand of the body's product the row coordinate is the output entry's row. -/
theorem lhs_row (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
/-- Its column coordinate is the summation index. -/
theorem lhs_col (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
/-- On the right operand the row coordinate is the summation index. -/
theorem rhs_row (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
/-- Its column coordinate is the output entry's column. -/
theorem rhs_col (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- A block of 20000 rows times a 64 × 64 matrix, accumulated from zero: entry (r, j) is Σₖ x(r, k) · w(k, j). -/
theorem rows_times (x : FVec Ideal S20000x64 .f32) (w : FVec Ideal S64x64 .f32) (r : Fin 20000) (j : Fin 64) :
    matmul dot_S20000x64_S64x64_S20000x64_1_0_0_1_n_n none x w (constant (F := Ideal) S20000x64 .f32 0x00000000#32) (ix2 r j)
      = ∑ k : Fin 64, x (ix2 r k) * w (ix2 k j) := by
  simp only [matmul]
  rw [Ideal.matmul_constant_zero_apply, ← Equiv.sum_comp (ValueIdx.contrEquiv1 dot_S20000x64_S64x64_S20000x64_1_0_0_1_n_n 64 rfl rfl).symm]
  refine Finset.sum_congr rfl fun k _ => ?_
  have hk := ValueIdx.contrEquiv1_symm_val dot_S20000x64_S64x64_S20000x64_1_0_0_1_n_n 64 rfl rfl k
  have el : dot_S20000x64_S64x64_S20000x64_1_0_0_1_n_n.lhsIdx (ix2 r j) ((ValueIdx.contrEquiv1 dot_S20000x64_S64x64_S20000x64_1_0_0_1_n_n 64 rfl rfl).symm k) = ix2 r k := funext fun a => Fin.ext (by
    match a with
    | ⟨0, _⟩ => exact lhs_row _ _
    | ⟨1, _⟩ => exact (lhs_col _ _).trans hk)
  have er : dot_S20000x64_S64x64_S20000x64_1_0_0_1_n_n.rhsIdx (ix2 r j) ((ValueIdx.contrEquiv1 dot_S20000x64_S64x64_S20000x64_1_0_0_1_n_n 64 rfl rfl).symm k) = ix2 k j := funext fun a => Fin.ext (by
    match a with
    | ⟨0, _⟩ => exact (rhs_row _ _).trans hk
    | ⟨1, _⟩ => exact rhs_col _ _)
  rw [el, er]

/-! ## The body's value at one entry of a block -/

/-- Entry (r, j) of what the body stores: the r-th row of source-endpoint features times the upper 64 rows of the weights,
    plus the r-th row of destination-endpoint features times the lower 64 rows, plus the bias at j, cut below at zero. -/
theorem block_entry (W : Vec Ideal S128x64 .f32) (xs xd : Vec Ideal S20000x64 .f32) (b : Vec Ideal S64 .f32)
    (r : Fin 20000) (j : Fin 64) :
    k1_pay1 (F := Ideal) W xs xd b (ix2 r j)
      = max (((∑ k : Fin 64, xs (ix2 r k) * W (ix2 (Cert.Gnn.wrow (R := 128) 0 (by omega) k) j))
          + ∑ k : Fin 64, xd (ix2 r k) * W (ix2 (Cert.Gnn.wrow (R := 128) 64 (by omega) k) j))
          + b (ix1 j)) Cert.Gnn.z0 := by
  unfold k1_pay1
  show max ((matmul dot_S20000x64_S64x64_S20000x64_1_0_0_1_n_n none (shapeCast S20000x64 xs Gen.shapeCasts_S20000x64_S20000x64)
          (extractStridedSlice S64x64 ![0, 0] W Gen.slices_S128x64_o0_0_S64x64) (constant (F := Ideal) S20000x64 .f32 0x00000000#32) (ix2 r j)
        + matmul dot_S20000x64_S64x64_S20000x64_1_0_0_1_n_n none (shapeCast S20000x64 xd Gen.shapeCasts_S20000x64_S20000x64)
          (extractStridedSlice S64x64 ![64, 0] W Gen.slices_S128x64_o64_0_S64x64) (constant (F := Ideal) S20000x64 .f32 0x00000000#32) (ix2 r j))
        + broadcastTo S20000x64 (shapeCast S1x64 b Gen.shapeCasts_S64_S1x64) Gen.broadcasts_S1x64_S20000x64 (ix2 r j)) Cert.Gnn.z0 = _
  rw [shapeCast_self, shapeCast_self, rows_times, rows_times, broadcastTo_1b_ab_apply, shapeCast_a_1a_apply]
  refine congrArg (fun u => max u Cert.Gnn.z0) ?_
  refine congrArg₂ (· + ·) (congrArg₂ (· + ·) ?_ ?_) rfl
  · exact Finset.sum_congr rfl fun k _ => congrArg (xs (ix2 r k) * ·) (slice2_axis0_eq 0 W Gen.slices_S128x64_o0_0_S64x64 k j)
  · exact Finset.sum_congr rfl fun k _ => congrArg (xd (ix2 r k) * ·) (slice2_axis0_eq 64 W Gen.slices_S128x64_o64_0_S64x64 k j)

/-! ## The blocks the body reads, as entries of the arrays -/

-- the TensorCore's buffer contents when the region is entered, as a parameter
variable (V : (c : Dev nD) → (b : Ref sig .tc) → Buf (Elt Ideal) ((c : Thread nD τ).loc b))

/-- The zero offset of a rank-2 block, in the two spellings it is met in. -/
theorem zero2 : (![0, 0] : Fin 2 → Nat) = fun _ => 0 := funext fun a => by fin_cases a <;> rfl
/-- The zero offset of a rank-1 block likewise. -/
theorem zero1 : (![0] : Fin 1 → Nat) = fun _ => 0 := funext fun a => by fin_cases a <;> rfl

/-- At grid point t the two feature windows and the output window sit at block row t, column block 0; the weights and the
    bias are whole at every point. -/
theorem block_of_point : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The array row that row r of point t's block is: 20000 · t + r. -/
abbrev arow (t : Fin cfg1.N) (r : Fin 20000) : Fin 800000 :=
  ⟨20000 * t.val + r.val, by have h : t.val < grid1.N := t.isLt; rw [N_1] at h; have := r.isLt; omega⟩

/-- Row r of the source-endpoint block at point t is row 20000 · t + r of the gathered source-endpoint rows. -/
theorem src_block (c : Dev nD) (t : Fin cfg1.N) (r : Fin 20000) (k : Fin 64) :
    iblk1 V c 0 t (ix2 r k) = V c main_v29 (ix2 (arow t r) k) := by
  obtain ⟨e0, e1, -⟩ := block_of_point t
  show V c main_v29 (((cfg1.win 0).blk t).view.emb (ix2 r k)) = V c main_v29 (ix2 (arow t r) k)
  refine congrArg (V c main_v29) (funext fun a => Fin.ext ?_)
  match a with
  | ⟨0, _⟩ => show win1_0.index t (0 : Fin 2) * 20000 + 1 * r.val = 20000 * t.val + r.val; omega
  | ⟨1, _⟩ => show win1_0.index t (1 : Fin 2) * 64 + 1 * k.val = k.val; omega

/-- Row r of the destination-endpoint block at point t is row 20000 · t + r of the gathered destination-endpoint rows. -/
theorem dst_block (c : Dev nD) (t : Fin cfg1.N) (r : Fin 20000) (k : Fin 64) :
    iblk1 V c 1 t (ix2 r k) = V c main_v36 (ix2 (arow t r) k) := by
  obtain ⟨-, -, e0, e1, -⟩ := block_of_point t
  show V c main_v36 (((cfg1.win 1).blk t).view.emb (ix2 r k)) = V c main_v36 (ix2 (arow t r) k)
  refine congrArg (V c main_v36) (funext fun a => Fin.ext ?_)
  match a with
  | ⟨0, _⟩ => show win1_1.index t (0 : Fin 2) * 20000 + 1 * r.val = 20000 * t.val + r.val; omega
  | ⟨1, _⟩ => show win1_1.index t (1 : Fin 2) * 64 + 1 * k.val = k.val; omega

/-- The weights' block is the whole 128 × 64 matrix at every point. -/
theorem weights_block (c : Dev nD) (t : Fin cfg1.N) (k : Fin 128) (j : Fin 64) :
    iblk1 V c 2 t (ix2 k j) = V c main_arg6 (ix2 k j) := by
  obtain ⟨-, -, -, -, e0, e1, -⟩ := block_of_point t
  show V c main_arg6 (((cfg1.win 2).blk t).view.emb (ix2 k j)) = V c main_arg6 (ix2 k j)
  refine congrArg (V c main_arg6) (funext fun a => Fin.ext ?_)
  match a with
  | ⟨0, _⟩ => show win1_2.index t (0 : Fin 2) * 128 + 1 * k.val = k.val; omega
  | ⟨1, _⟩ => show win1_2.index t (1 : Fin 2) * 64 + 1 * j.val = j.val; omega

/-- The bias's block is the whole vector at every point. -/
theorem bias_block (c : Dev nD) (t : Fin cfg1.N) (j : Fin 64) :
    iblk1 V c 3 t (ix1 j) = V c main_arg7 (ix1 j) := by
  obtain ⟨-, -, -, -, -, -, e0, -⟩ := block_of_point t
  show V c main_arg7 (((cfg1.win 3).blk t).view.emb (ix1 j)) = V c main_arg7 (ix1 j)
  refine congrArg (V c main_arg7) (funext fun a => Fin.ext ?_)
  match a with
  | ⟨0, _⟩ => show win1_3.index t (0 : Fin 1) * 64 + 1 * j.val = j.val; omega

/-- Entry (r, j) of the output window's block at point t is entry (20000 · t + r, j) of the output array. -/
theorem out_block (t : Fin cfg1.N) (r : Fin 20000) (j : Fin 64) :
    ((cfg1.win 4).blk t).view.emb (ix2 r j) = ix2 (arow t r) j := by
  obtain ⟨-, -, -, -, -, -, -, e0, e1⟩ := block_of_point t
  refine funext fun a => Fin.ext ?_
  match a with
  | ⟨0, _⟩ => show win1_4.index t (0 : Fin 2) * 20000 + 1 * r.val = 20000 * t.val + r.val; omega
  | ⟨1, _⟩ => show win1_4.index t (1 : Fin 2) * 64 + 1 * j.val = j.val; omega

/-! ## What a point writes back, and the whole array -/

/-- What point t writes back is block t of the edge update of the arrays as the region found them. -/
theorem flushed_eq (c : Dev nD) (t : Fin cfg1.N) :
    (dat1 (F := Ideal) V c).flushed 4 t
      = ((cfg1.win 4).blk t).view.read (Elt Ideal)
          (Cert.Gnn.edgeUpd (V c main_v29) (V c main_v36) (V c main_arg6) (V c main_arg7)) := by
  show (cfg1.win 4).cut (grid1.coords t) ((dat1 V c).after 4 t) = _
  rw [after1_4]
  unfold out1_4
  rw [View.canon_unit_zero zero2]
  simp only [View.ld_unit_zero (S := S20000x64) zero2, View.ld_unit_zero (S := S128x64) zero2, View.ld_unit_zero (S := S64) zero1]
  funext y
  obtain ⟨r, j, rfl⟩ : ∃ (r : Fin 20000) (j : Fin 64), y = ix2 r j := ⟨y 0, y 1, eq_ix2 y⟩
  show k1_pay1 (F := Ideal) (iblk1 V c 2 t) (iblk1 V c 0 t) (iblk1 V c 1 t) (iblk1 V c 3 t) (ix2 r j)
    = Cert.Gnn.edgeUpd (V c main_v29) (V c main_v36) (V c main_arg6) (V c main_arg7) (((cfg1.win 4).blk t).view.emb (ix2 r j))
  refine (block_entry (iblk1 V c 2 t) (iblk1 V c 0 t) (iblk1 V c 1 t) (iblk1 V c 3 t) r j).trans ?_
  refine Eq.trans ?_ (congrArg (Cert.Gnn.edgeUpd (V c main_v29) (V c main_v36) (V c main_arg6) (V c main_arg7)) (out_block t r j)).symm
  show _ = Cert.Gnn.edgeAt (V c main_v29) (V c main_v36) (V c main_arg6) (V c main_arg7) (arow t r) j
  unfold Cert.Gnn.edgeAt
  refine congrArg (fun u => max u Cert.Gnn.z0) ?_
  refine congrArg₂ (· + ·) (congrArg₂ (· + ·) ?_ ?_) (bias_block V c t j)
  · exact Finset.sum_congr rfl fun k _ => congrArg₂ (· * ·) (src_block V c t r k) (weights_block V c t _ j)
  · exact Finset.sum_congr rfl fun k _ => congrArg₂ (· * ·) (dst_block V c t r k) (weights_block V c t _ j)

/-- An index of the output array is in point t's block iff each coordinate is in the block's range on its axis. -/
theorem mem_blk (t : Fin cfg1.N) (i : S800000x64.Idx) :
    i ∈ ((cfg1.win 4).blk t).view.set ↔ ∀ a : Fin 2, win1_4.index t a * S20000x64.size a ≤ (i a).val ∧ (i a).val < win1_4.index t a * S20000x64.size a + S20000x64.size a := by
  show i ∈ ((View.whole main_v37).slice (win1_4.rect t)).set ↔ _
  rw [View.set_slice_whole, Rect.mem_set_unit]
  exact Iff.rfl

/-- Every entry of the output array is in some point's block: row i belongs to point i / 20000. -/
theorem cover (i : S800000x64.Idx) :
    ∃ t : Fin cfg1.N, (cfg1.win 4).flush t = true ∧ i ∈ ((cfg1.win 4).blk t).view.set := by
  have hi0 : (i 0).val < 800000 := (i 0).isLt
  have hi1 : (i 1).val < 64 := (i 1).isLt
  have ht : (i 0).val / 20000 < cfg1.N := by show _ < grid1.N; rw [N_1]; omega
  obtain ⟨-, -, -, -, -, -, -, e0, e1⟩ := block_of_point ⟨(i 0).val / 20000, ht⟩
  refine ⟨⟨(i 0).val / 20000, ht⟩, flush1_4 _, ?_⟩
  rw [mem_blk]
  intro a
  match a with
  | ⟨0, _⟩ =>
    show win1_4.index ⟨(i 0).val / 20000, ht⟩ (0 : Fin 2) * 20000 ≤ (i 0).val ∧ (i 0).val < win1_4.index ⟨(i 0).val / 20000, ht⟩ (0 : Fin 2) * 20000 + 20000
    have e0' : win1_4.index ⟨(i 0).val / 20000, ht⟩ (0 : Fin 2) = (i 0).val / 20000 := e0
    omega
  | ⟨1, _⟩ =>
    show win1_4.index ⟨(i 0).val / 20000, ht⟩ (1 : Fin 2) * 64 ≤ (i 1).val ∧ (i 1).val < win1_4.index ⟨(i 0).val / 20000, ht⟩ (1 : Fin 2) * 64 + 64
    omega

/-- The output array after the region's last write-back is the edge update of the arrays as the region found them. -/
theorem final (c : Dev nD) :
    (dat1 (F := Ideal) V c).arrAt 4 cfg1.N
      = Cert.Gnn.edgeUpd (V c main_v29) (V c main_v36) (V c main_arg6) (V c main_arg7) :=
  (dat1 (F := Ideal) V c).arrAt_eq_of_cover 4 (Cert.Gnn.edgeUpd (V c main_v29) (V c main_v36) (V c main_arg6) (V c main_arg7))
    (fun t _ => flushed_eq V c t) cover

end Cert.KernelIdeal.Region1

end
-- ==== Proof.Region2.lean ====
/-
  Region 2 of the kernel's program (a node update): after the pipeline has run over its grid, the region's output array
  holds, entry by entry, the node update of Proof/Spec.lean of the arrays the region was entered with.
-/
import proofs.«416435_j22230750724513_4_alg».proof.Proof.Gen.KernelIdeal.Frame
import proofs.«416435_j22230750724513_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region2

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## A block of 5000 rows times a 64×64 matrix, read at an entry

The product contracts the rows' 64 columns against the matrix's 64 rows: the left factor is read at (row, k), the
right one at (k, column). -/

theorem left_factor_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem left_factor_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem right_factor_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem right_factor_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, j) of the product accumulated from zero is row p of the left factor against column j of the right one. -/
theorem rows_times_apply (l : FVec Ideal S5000x64 .f32) (r : FVec Ideal S64x64 .f32) (p : Fin 5000) (j : Fin 64) :
    matmul (F := Ideal) dot_S5000x64_S64x64_S5000x64_1_0_0_1_n_n none l r (constant (F := Ideal) S5000x64 .f32 0x00000000#32) (ix2 p j)
      = ∑ k : Fin 64, l (ix2 p k) * r (ix2 k j) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p j) ((ValueIdx.contrEquiv1 dot_S5000x64_S64x64_S5000x64_1_0_0_1_n_n 64 rfl rfl).symm k) = ix2 p k := funext fun a => Fin.ext (by
    match a with
    | ⟨0, _⟩ => exact left_factor_row _ _
    | ⟨1, _⟩ => exact (left_factor_col _ _).trans hk)
  have er : dot_S5000x64_S64x64_S5000x64_1_0_0_1_n_n.rhsIdx (ix2 p j) ((ValueIdx.contrEquiv1 dot_S5000x64_S64x64_S5000x64_1_0_0_1_n_n 64 rfl rfl).symm k) = ix2 k j := funext fun a => Fin.ext (by
    match a with
    | ⟨0, _⟩ => exact (right_factor_row _ _).trans hk
    | ⟨1, _⟩ => exact right_factor_col _ _)
  rw [el, er]

/-! ## The layout steps of the body read at an entry -/

/-- The reciprocal in-degree of row p multiplies every column of that row. -/
theorem column_spread_apply (v : FVec Ideal S5000x1 .f32) (p : Fin 5000) (k : Fin 64) :
    broadcastTo S5000x64 v Gen.broadcasts_S5000x1_S5000x64 (ix2 p k) = v (ix2 p (0 : Fin 1)) := by
  refine broadcastTo_apply v Gen.broadcasts_S5000x1_S5000x64 (ix2 p k) (ix2 p (0 : Fin 1)) fun ax => ?_
  match ax with
  | ⟨0, _⟩ => rfl
  | ⟨1, _⟩ => rfl

/-- The bias is one row of 64 entries added to every row of the block. -/
theorem bias_spread_apply (b : FVec Ideal S64 .f32) (p : Fin 5000) (j : Fin 64) :
    broadcastTo S5000x64 (shapeCast S1x64 b Gen.shapeCasts_S64_S1x64) Gen.broadcasts_S1x64_S5000x64 (ix2 p j) = b (ix1 j) :=
  (broadcastTo_1b_ab_apply (shapeCast S1x64 b Gen.shapeCasts_S64_S1x64) Gen.broadcasts_S1x64_S5000x64 p j).trans
    (shapeCast_a_1a_apply b Gen.shapeCasts_S64_S1x64 0 j)

/-- The weight matrix is three stacked 64×64 blocks: rows 0…63 multiply the node's own features, -/
theorem weights_block0_apply (w : FVec Ideal S192x64 .f32) (k j : Fin 64) :
    extractStridedSlice S64x64 ![0, 0] w Gen.slices_S192x64_o0_0_S64x64 (ix2 k j) = w (ix2 (Cert.Gnn.wrow (R := 192) 0 (by omega) k) j) :=
  slice2_axis0_apply 0 w Gen.slices_S192x64_o0_0_S64x64 k j _ rfl
/-- rows 64…127 the averaged source rows, -/
theorem weights_block1_apply (w : FVec Ideal S192x64 .f32) (k j : Fin 64) :
    extractStridedSlice S64x64 ![64, 0] w Gen.slices_S192x64_o64_0_S64x64 (ix2 k j) = w (ix2 (Cert.Gnn.wrow (R := 192) 64 (by omega) k) j) :=
  slice2_axis0_apply 64 w Gen.slices_S192x64_o64_0_S64x64 k j _ rfl
/-- rows 128…191 the averaged edge rows. -/
theorem weights_block2_apply (w : FVec Ideal S192x64 .f32) (k j : Fin 64) :
    extractStridedSlice S64x64 ![128, 0] w Gen.slices_S192x64_o128_0_S64x64 (ix2 k j) = w (ix2 (Cert.Gnn.wrow (R := 192) 128 (by omega) k) j) :=
  slice2_axis0_apply 128 w Gen.slices_S192x64_o128_0_S64x64 k j _ rfl

/-! ## The body's arithmetic at an entry of the block

Row p, column j: the node's own row against the first weight block, plus the summed source row scaled by the
reciprocal in-degree against the second, plus the summed edge row scaled likewise against the third, plus the bias,
rectified. (This launch reshapes the node block to its own shape before the first product; that changes nothing.) -/

theorem body_apply (r : Vec Ideal S5000x1 .f32) (s e : Vec Ideal S5000x64 .f32) (w : Vec Ideal S192x64 .f32)
    (h : Vec Ideal S5000x64 .f32) (b : Vec Ideal S64 .f32) (p : Fin 5000) (j : Fin 64) :
    k2_pay1 (F := Ideal) r s e w h b (ix2 p j)
      = max ((((∑ k : Fin 64, h (ix2 p k) * w (ix2 (Cert.Gnn.wrow (R := 192) 0 (by omega) k) j))
          + ∑ k : Fin 64, (s (ix2 p k) * r (ix2 p (0 : Fin 1))) * w (ix2 (Cert.Gnn.wrow (R := 192) 64 (by omega) k) j))
          + ∑ k : Fin 64, (e (ix2 p k) * r (ix2 p (0 : Fin 1))) * w (ix2 (Cert.Gnn.wrow (R := 192) 128 (by omega) k) j))
          + b (ix1 j)) Cert.Gnn.z0 := by
  unfold k2_pay1
  simp only [shapeCast_self]
  refine congrArg₂ max (congrArg₂ (· + ·) (congrArg₂ (· + ·) (congrArg₂ (· + ·) ?_ ?_) ?_) ?_) rfl
  · exact (rows_times_apply h _ p j).trans
      (Finset.sum_congr rfl fun k _ => congrArg (h (ix2 p k) * ·) (weights_block0_apply w k j))
  · exact (rows_times_apply _ _ p j).trans
      (Finset.sum_congr rfl fun k _ => congrArg₂ (· * ·) (congrArg (s (ix2 p k) * ·) (column_spread_apply r p k)) (weights_block1_apply w k j))
  · exact (rows_times_apply _ _ p j).trans
      (Finset.sum_congr rfl fun k _ => congrArg₂ (· * ·) (congrArg (e (ix2 p k) * ·) (column_spread_apply r p k)) (weights_block2_apply w k j))
  · exact bias_spread_apply b p j

/-! ## Where a block sits in its array

This launch too runs over ten points. At point t the row-blocked windows (the node table the first update left, the
two summed tables, the in-degree column and the output) hold rows 5000·t … 5000·t + 4999 of their arrays; the second
layer's weights and bias are staged whole at every point. -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The block indices of the seven windows at a grid point, decided over the ten points. -/
theorem block_indices : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row p of the node table's block at point t is row 5000·t + p of the table. -/
theorem node_rows_block (c : Dev nD) (t : Fin cfg2.N) (p : Fin 5000) (k : Fin 64) (n : Fin 50000)
    (hn : n.val = 5000 * t.val + p.val) :
    (iblk2 V c 0 t : Vec Ideal S5000x64 .f32) (ix2 p k) = (V c main_v22 : S50000x64.Idx → EReal) (ix2 n k) := by
  obtain ⟨e0, e1, -⟩ := block_indices t
  show V c main_v22 (((cfg2.win 0).blk t).view.emb (ix2 p k)) = V c main_v22 (ix2 n k)
  refine congrArg (V c main_v22) (funext fun a => Fin.ext ?_)
  match a with
  | ⟨0, _⟩ => show win2_0.index t (0 : Fin 2) * 5000 + 1 * p.val = n.val; omega
  | ⟨1, _⟩ => show win2_0.index t (1 : Fin 2) * 64 + 1 * k.val = k.val; omega

/-- Row p of the summed source rows' block at point t is row 5000·t + p of that table. -/
theorem source_rows_block (c : Dev nD) (t : Fin cfg2.N) (p : Fin 5000) (k : Fin 64) (n : Fin 50000)
    (hn : n.val = 5000 * t.val + p.val) :
    (iblk2 V c 1 t : Vec Ideal S5000x64 .f32) (ix2 p k) = (V c main_v47 : S50000x64.Idx → EReal) (ix2 n k) := by
  obtain ⟨-, -, e0, e1, -⟩ := block_indices t
  show V c main_v47 (((cfg2.win 1).blk t).view.emb (ix2 p k)) = V c main_v47 (ix2 n k)
  refine congrArg (V c main_v47) (funext fun a => Fin.ext ?_)
  match a with
  | ⟨0, _⟩ => show win2_1.index t (0 : Fin 2) * 5000 + 1 * p.val = n.val; omega
  | ⟨1, _⟩ => show win2_1.index t (1 : Fin 2) * 64 + 1 * k.val = k.val; omega

/-- Row p of the summed edge rows' block at point t is row 5000·t + p of that table. -/
theorem edge_rows_block (c : Dev nD) (t : Fin cfg2.N) (p : Fin 5000) (k : Fin 64) (n : Fin 50000)
    (hn : n.val = 5000 * t.val + p.val) :
    (iblk2 V c 2 t : Vec Ideal S5000x64 .f32) (ix2 p k) = (V c main_v50 : S50000x64.Idx → EReal) (ix2 n k) := by
  obtain ⟨-, -, -, -, e0, e1, -⟩ := block_indices t
  show V c main_v50 (((cfg2.win 2).blk t).view.emb (ix2 p k)) = V c main_v50 (ix2 n k)
  refine congrArg (V c main_v50) (funext fun a => Fin.ext ?_)
  match a with
  | ⟨0, _⟩ => show win2_2.index t (0 : Fin 2) * 5000 + 1 * p.val = n.val; omega
  | ⟨1, _⟩ => show win2_2.index t (1 : Fin 2) * 64 + 1 * k.val = k.val; omega

/-- Entry p of the in-degree column's block at point t is entry 5000·t + p of the column. -/
theorem degree_column_block (c : Dev nD) (t : Fin cfg2.N) (p : Fin 5000) (n : Fin 50000)
    (hn : n.val = 5000 * t.val + p.val) :
    (iblk2 V c 3 t : Vec Ideal S5000x1 .f32) (ix2 p (0 : Fin 1)) = (V c main_v59 : S50000x1.Idx → EReal) (ix2 n (0 : Fin 1)) := by
  obtain ⟨-, -, -, -, -, -, e0, e1, -⟩ := block_indices t
  show V c main_v59 (((cfg2.win 3).blk t).view.emb (ix2 p (0 : Fin 1))) = V c main_v59 (ix2 n (0 : Fin 1))
  refine congrArg (V c main_v59) (funext fun a => Fin.ext ?_)
  match a with
  | ⟨0, _⟩ => show win2_3.index t (0 : Fin 2) * 5000 + 1 * p.val = n.val; omega
  | ⟨1, _⟩ => show win2_3.index t (1 : Fin 2) * 1 + 1 * 0 = 0; omega

/-- The weights are staged whole: the block at any point is the matrix. -/
theorem weights_block (c : Dev nD) (t : Fin cfg2.N) (a : Fin 192) (j : Fin 64) :
    (iblk2 V c 4 t : Vec Ideal S192x64 .f32) (ix2 a j) = (V c main_arg8 : S192x64.Idx → EReal) (ix2 a j) := by
  obtain ⟨-, -, -, -, -, -, -, -, e0, e1, -⟩ := block_indices t
  show V c main_arg8 (((cfg2.win 4).blk t).view.emb (ix2 a j)) = V c main_arg8 (ix2 a j)
  refine congrArg (V c main_arg8) (funext fun b => Fin.ext ?_)
  match b with
  | ⟨0, _⟩ => show win2_4.index t (0 : Fin 2) * 192 + 1 * a.val = a.val; omega
  | ⟨1, _⟩ => show win2_4.index t (1 : Fin 2) * 64 + 1 * j.val = j.val; omega

/-- So is the bias. -/
theorem bias_block (c : Dev nD) (t : Fin cfg2.N) (j : Fin 64) :
    (iblk2 V c 5 t : Vec Ideal S64 .f32) (ix1 j) = (V c main_arg9 : S64.Idx → EReal) (ix1 j) := by
  obtain ⟨-, -, -, -, -, -, -, -, -, -, e0, -⟩ := block_indices t
  show V c main_arg9 (((cfg2.win 5).blk t).view.emb (ix1 j)) = V c main_arg9 (ix1 j)
  refine congrArg (V c main_arg9) (funext fun b => Fin.ext ?_)
  match b with
  | ⟨0, _⟩ => show win2_5.index t (0 : Fin 1) * 64 + 1 * j.val = j.val; omega

/-- Entry (p, j) of the output's block at point t sits at (5000·t + p, j) of the output array. -/
theorem output_block_entry (t : Fin cfg2.N) (p : Fin 5000) (j : Fin 64) (n : Fin 50000)
    (hn : n.val = 5000 * t.val + p.val) :
    (((cfg2.win 6).blk t).view.emb (ix2 p j) : S50000x64.Idx) = ix2 n j := by
  obtain ⟨-, -, -, -, -, -, -, -, -, -, -, e0, e1⟩ := block_indices t
  refine funext fun a => Fin.ext ?_
  match a with
  | ⟨0, _⟩ => show win2_6.index t (0 : Fin 2) * 5000 + 1 * p.val = n.val; omega
  | ⟨1, _⟩ => show win2_6.index t (1 : Fin 2) * 64 + 1 * j.val = j.val; omega

/-! ## What a grid point writes back -/

/-- Two functions on the 5000×64 block agree when they agree at every (row, column). -/
theorem block_ext {X Y : S5000x64.Idx → EReal} (h : ∀ (p : Fin 5000) (j : Fin 64), X (ix2 p j) = Y (ix2 p j)) : X = Y :=
  funext fun y => by rw [eq_ix2 y]; exact h _ _

/-- Point t writes back rows 5000·t … 5000·t + 4999 of the node update of the arrays the region was entered with. -/
theorem flushed_eq (c : Dev nD) (t : Fin cfg2.N) :
    (dat2 (F := Ideal) V c).flushed 6 t
      = ((cfg2.win 6).blk t).view.read (Elt Ideal)
          (Cert.Gnn.nodeUpd (V c main_v22) (V c main_v47) (V c main_v50) (V c main_v59) (V c main_arg8) (V c main_arg9)) := by
  show (cfg2.win 6).cut (grid2.coords t) ((dat2 V c).after 6 t) = _
  rw [after2_6]
  unfold out2_6
  rw [View.canon_unit_zero zero_offsets2]
  simp only [View.ld_unit_zero (S := S5000x64) zero_offsets2, View.ld_unit_zero (S := S5000x1) zero_offsets2,
    View.ld_unit_zero (S := S192x64) zero_offsets2, View.ld_unit_zero (S := S64) zero_offsets1]
  refine block_ext fun p j => ?_
  have hN : cfg2.N = 10 := N_2
  have ht : t.val < 10 := hN ▸ t.isLt
  have hn : 5000 * t.val + p.val < 50000 := by have := p.isLt; omega
  refine (body_apply (iblk2 V c 3 t) (iblk2 V c 1 t) (iblk2 V c 2 t) (iblk2 V c 4 t) (iblk2 V c 0 t) (iblk2 V c 5 t) p j).trans ?_
  show _ = Cert.Gnn.nodeUpd (V c main_v22) (V c main_v47) (V c main_v50) (V c main_v59) (V c main_arg8) (V c main_arg9)
      (((cfg2.win 6).blk t).view.emb (ix2 p j))
  rw [output_block_entry t p j ⟨5000 * t.val + p.val, hn⟩ rfl, Cert.Gnn.nodeUpd_ix2]
  unfold Cert.Gnn.nodeAt
  refine congrArg₂ max (congrArg₂ (· + ·) (congrArg₂ (· + ·) (congrArg₂ (· + ·)
    (Finset.sum_congr rfl fun k _ => ?_) (Finset.sum_congr rfl fun k _ => ?_)) (Finset.sum_congr rfl fun k _ => ?_)) ?_) rfl
  · exact congrArg₂ (· * ·) (node_rows_block V c t p k _ rfl) (weights_block V c t _ j)
  · exact congrArg₂ (· * ·) (congrArg₂ (· * ·) (source_rows_block V c t p k _ rfl) (degree_column_block V c t p _ rfl)) (weights_block V c t _ j)
  · exact congrArg₂ (· * ·) (congrArg₂ (· * ·) (edge_rows_block V c t p k _ rfl) (degree_column_block V c t p _ rfl)) (weights_block V c t _ j)
  · exact bias_block V c t j

/-! ## The ten blocks tile the output array -/

/-- An index of the output array is in point t's block exactly when, on each axis, its coordinate is in the block's range. -/
theorem mem_block (t : Fin cfg2.N) (i : S50000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v60).slice (win2_6.rect t)).set ↔ _
  rw [View.set_slice_whole, Rect.mem_set_unit]
  exact Iff.rfl

/-- Row n of the output belongs to the block of point n / 5000, and every point writes its block back. -/
theorem rows_covered (i : S50000x64.Idx) :
    ∃ t : Fin cfg2.N, (cfg2.win 6).flush t = true ∧ i ∈ ((cfg2.win 6).blk t).view.set := by
  have hN : cfg2.N = 10 := N_2
  have hi0 : (i 0).val < 50000 := (i 0).isLt
  have hi1 : (i 1).val < 64 := (i 1).isLt
  obtain ⟨t, ht⟩ : ∃ t : Fin cfg2.N, t.val = (i 0).val / 5000 := ⟨⟨(i 0).val / 5000, by rw [hN]; omega⟩, rfl⟩
  obtain ⟨-, -, -, -, -, -, -, -, -, -, -, e0, e1⟩ := block_indices t
  refine ⟨t, flush2_6 t, ?_⟩
  rw [mem_block]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 64 ≤ (i 1).val ∧ (i 1).val < win2_6.index t (1 : Fin 2) * 64 + 64
    omega

/-- The output array after the region's last write-back is the node update of the arrays as the region found them. -/
theorem final (c : Dev nD) :
    (dat2 (F := Ideal) V c).arrAt 6 cfg2.N
      = Cert.Gnn.nodeUpd (V c main_v22) (V c main_v47) (V c main_v50) (V c main_v59) (V c main_arg8) (V c main_arg9) :=
  (dat2 (F := Ideal) V c).arrAt_eq_of_cover 6
    (Cert.Gnn.nodeUpd (V c main_v22) (V c main_v47) (V c main_v50) (V c main_v59) (V c main_arg8) (V c main_arg9))
    (fun t _ => flushed_eq V c t) rows_covered

end Cert.KernelIdeal.Region2

end
-- ==== Proof.Region3.lean ====
/-
  Region 3 of the kernel's program (a edge update): after the pipeline has run over its grid, the region's output array
  holds, entry by entry, the edge update of Proof/Spec.lean of the arrays the region was entered with.
-/
import proofs.«416435_j22230750724513_4_alg».proof.Proof.Gen.KernelIdeal.Frame
import proofs.«416435_j22230750724513_4_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region3

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Idealize.ShloMosaic.Pipeline (Dat Cfg Window)

/-! ## One product of the body: a block of rows times a 64 × 64 matrix -/

/-- On the left operand of the body's product the row coordinate is the output entry's row. -/
theorem lhs_row (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
/-- Its column coordinate is the summation index. -/
theorem lhs_col (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
/-- On the right operand the row coordinate is the summation index. -/
theorem rhs_row (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
/-- Its column coordinate is the output entry's column. -/
theorem rhs_col (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- A block of 20000 rows times a 64 × 64 matrix, accumulated from zero: entry (r, j) is Σₖ x(r, k) · w(k, j). -/
theorem rows_times (x : FVec Ideal S20000x64 .f32) (w : FVec Ideal S64x64 .f32) (r : Fin 20000) (j : Fin 64) :
    matmul dot_S20000x64_S64x64_S20000x64_1_0_0_1_n_n none x w (constant (F := Ideal) S20000x64 .f32 0x00000000#32) (ix2 r j)
      = ∑ k : Fin 64, x (ix2 r k) * w (ix2 k j) := by
  simp only [matmul]
  rw [Ideal.matmul_constant_zero_apply, ← Equiv.sum_comp (ValueIdx.contrEquiv1 dot_S20000x64_S64x64_S20000x64_1_0_0_1_n_n 64 rfl rfl).symm]
  refine Finset.sum_congr rfl fun k _ => ?_
  have hk := ValueIdx.contrEquiv1_symm_val dot_S20000x64_S64x64_S20000x64_1_0_0_1_n_n 64 rfl rfl k
  have el : dot_S20000x64_S64x64_S20000x64_1_0_0_1_n_n.lhsIdx (ix2 r j) ((ValueIdx.contrEquiv1 dot_S20000x64_S64x64_S20000x64_1_0_0_1_n_n 64 rfl rfl).symm k) = ix2 r k := funext fun a => Fin.ext (by
    match a with
    | ⟨0, _⟩ => exact lhs_row _ _
    | ⟨1, _⟩ => exact (lhs_col _ _).trans hk)
  have er : dot_S20000x64_S64x64_S20000x64_1_0_0_1_n_n.rhsIdx (ix2 r j) ((ValueIdx.contrEquiv1 dot_S20000x64_S64x64_S20000x64_1_0_0_1_n_n 64 rfl rfl).symm k) = ix2 k j := funext fun a => Fin.ext (by
    match a with
    | ⟨0, _⟩ => exact (rhs_row _ _).trans hk
    | ⟨1, _⟩ => exact rhs_col _ _)
  rw [el, er]

/-! ## The body's value at one entry of a block -/

/-- Entry (r, j) of what the body stores: the r-th row of source-endpoint features times the upper 64 rows of the weights,
    plus the r-th row of destination-endpoint features times the lower 64 rows, plus the bias at j, cut below at zero. -/
theorem block_entry (W : Vec Ideal S128x64 .f32) (xs xd : Vec Ideal S20000x64 .f32) (b : Vec Ideal S64 .f32)
    (r : Fin 20000) (j : Fin 64) :
    k3_pay1 (F := Ideal) W xs xd b (ix2 r j)
      = max (((∑ k : Fin 64, xs (ix2 r k) * W (ix2 (Cert.Gnn.wrow (R := 128) 0 (by omega) k) j))
          + ∑ k : Fin 64, xd (ix2 r k) * W (ix2 (Cert.Gnn.wrow (R := 128) 64 (by omega) k) j))
          + b (ix1 j)) Cert.Gnn.z0 := by
  unfold k3_pay1
  show max ((matmul dot_S20000x64_S64x64_S20000x64_1_0_0_1_n_n none (shapeCast S20000x64 xs Gen.shapeCasts_S20000x64_S20000x64)
          (extractStridedSlice S64x64 ![0, 0] W Gen.slices_S128x64_o0_0_S64x64) (constant (F := Ideal) S20000x64 .f32 0x00000000#32) (ix2 r j)
        + matmul dot_S20000x64_S64x64_S20000x64_1_0_0_1_n_n none (shapeCast S20000x64 xd Gen.shapeCasts_S20000x64_S20000x64)
          (extractStridedSlice S64x64 ![64, 0] W Gen.slices_S128x64_o64_0_S64x64) (constant (F := Ideal) S20000x64 .f32 0x00000000#32) (ix2 r j))
        + broadcastTo S20000x64 (shapeCast S1x64 b Gen.shapeCasts_S64_S1x64) Gen.broadcasts_S1x64_S20000x64 (ix2 r j)) Cert.Gnn.z0 = _
  rw [shapeCast_self, shapeCast_self, rows_times, rows_times, broadcastTo_1b_ab_apply, shapeCast_a_1a_apply]
  refine congrArg (fun u => max u Cert.Gnn.z0) ?_
  refine congrArg₂ (· + ·) (congrArg₂ (· + ·) ?_ ?_) rfl
  · exact Finset.sum_congr rfl fun k _ => congrArg (xs (ix2 r k) * ·) (slice2_axis0_eq 0 W Gen.slices_S128x64_o0_0_S64x64 k j)
  · exact Finset.sum_congr rfl fun k _ => congrArg (xd (ix2 r k) * ·) (slice2_axis0_eq 64 W Gen.slices_S128x64_o64_0_S64x64 k j)

/-! ## The blocks the body reads, as entries of the arrays -/

-- the TensorCore's buffer contents when the region is entered, as a parameter
variable (V : (c : Dev nD) → (b : Ref sig .tc) → Buf (Elt Ideal) ((c : Thread nD τ).loc b))

/-- The zero offset of a rank-2 block, in the two spellings it is met in. -/
theorem zero2 : (![0, 0] : Fin 2 → Nat) = fun _ => 0 := funext fun a => by fin_cases a <;> rfl
/-- The zero offset of a rank-1 block likewise. -/
theorem zero1 : (![0] : Fin 1 → Nat) = fun _ => 0 := funext fun a => by fin_cases a <;> rfl

/-- At grid point t the two feature windows and the output window sit at block row t, column block 0; the weights and the
    bias are whole at every point. -/
theorem block_of_point : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- The array row that row r of point t's block is: 20000 · t + r. -/
abbrev arow (t : Fin cfg3.N) (r : Fin 20000) : Fin 800000 :=
  ⟨20000 * t.val + r.val, by have h : t.val < grid3.N := t.isLt; rw [N_3] at h; have := r.isLt; omega⟩

/-- Row r of the source-endpoint block at point t is row 20000 · t + r of the gathered source-endpoint rows. -/
theorem src_block (c : Dev nD) (t : Fin cfg3.N) (r : Fin 20000) (k : Fin 64) :
    iblk3 V c 0 t (ix2 r k) = V c main_v67 (ix2 (arow t r) k) := by
  obtain ⟨e0, e1, -⟩ := block_of_point t
  show V c main_v67 (((cfg3.win 0).blk t).view.emb (ix2 r k)) = V c main_v67 (ix2 (arow t r) k)
  refine congrArg (V c main_v67) (funext fun a => Fin.ext ?_)
  match a with
  | ⟨0, _⟩ => show win3_0.index t (0 : Fin 2) * 20000 + 1 * r.val = 20000 * t.val + r.val; omega
  | ⟨1, _⟩ => show win3_0.index t (1 : Fin 2) * 64 + 1 * k.val = k.val; omega

/-- Row r of the destination-endpoint block at point t is row 20000 · t + r of the gathered destination-endpoint rows. -/
theorem dst_block (c : Dev nD) (t : Fin cfg3.N) (r : Fin 20000) (k : Fin 64) :
    iblk3 V c 1 t (ix2 r k) = V c main_v74 (ix2 (arow t r) k) := by
  obtain ⟨-, -, e0, e1, -⟩ := block_of_point t
  show V c main_v74 (((cfg3.win 1).blk t).view.emb (ix2 r k)) = V c main_v74 (ix2 (arow t r) k)
  refine congrArg (V c main_v74) (funext fun a => Fin.ext ?_)
  match a with
  | ⟨0, _⟩ => show win3_1.index t (0 : Fin 2) * 20000 + 1 * r.val = 20000 * t.val + r.val; omega
  | ⟨1, _⟩ => show win3_1.index t (1 : Fin 2) * 64 + 1 * k.val = k.val; omega

/-- The weights' block is the whole 128 × 64 matrix at every point. -/
theorem weights_block (c : Dev nD) (t : Fin cfg3.N) (k : Fin 128) (j : Fin 64) :
    iblk3 V c 2 t (ix2 k j) = V c main_arg10 (ix2 k j) := by
  obtain ⟨-, -, -, -, e0, e1, -⟩ := block_of_point t
  show V c main_arg10 (((cfg3.win 2).blk t).view.emb (ix2 k j)) = V c main_arg10 (ix2 k j)
  refine congrArg (V c main_arg10) (funext fun a => Fin.ext ?_)
  match a with
  | ⟨0, _⟩ => show win3_2.index t (0 : Fin 2) * 128 + 1 * k.val = k.val; omega
  | ⟨1, _⟩ => show win3_2.index t (1 : Fin 2) * 64 + 1 * j.val = j.val; omega

/-- The bias's block is the whole vector at every point. -/
theorem bias_block (c : Dev nD) (t : Fin cfg3.N) (j : Fin 64) :
    iblk3 V c 3 t (ix1 j) = V c main_arg11 (ix1 j) := by
  obtain ⟨-, -, -, -, -, -, e0, -⟩ := block_of_point t
  show V c main_arg11 (((cfg3.win 3).blk t).view.emb (ix1 j)) = V c main_arg11 (ix1 j)
  refine congrArg (V c main_arg11) (funext fun a => Fin.ext ?_)
  match a with
  | ⟨0, _⟩ => show win3_3.index t (0 : Fin 1) * 64 + 1 * j.val = j.val; omega

/-- Entry (r, j) of the output window's block at point t is entry (20000 · t + r, j) of the output array. -/
theorem out_block (t : Fin cfg3.N) (r : Fin 20000) (j : Fin 64) :
    ((cfg3.win 4).blk t).view.emb (ix2 r j) = ix2 (arow t r) j := by
  obtain ⟨-, -, -, -, -, -, -, e0, e1⟩ := block_of_point t
  refine funext fun a => Fin.ext ?_
  match a with
  | ⟨0, _⟩ => show win3_4.index t (0 : Fin 2) * 20000 + 1 * r.val = 20000 * t.val + r.val; omega
  | ⟨1, _⟩ => show win3_4.index t (1 : Fin 2) * 64 + 1 * j.val = j.val; omega

/-! ## What a point writes back, and the whole array -/

/-- What point t writes back is block t of the edge update of the arrays as the region found them. -/
theorem flushed_eq (c : Dev nD) (t : Fin cfg3.N) :
    (dat3 (F := Ideal) V c).flushed 4 t
      = ((cfg3.win 4).blk t).view.read (Elt Ideal)
          (Cert.Gnn.edgeUpd (V c main_v67) (V c main_v74) (V c main_arg10) (V c main_arg11)) := by
  show (cfg3.win 4).cut (grid3.coords t) ((dat3 V c).after 4 t) = _
  rw [after3_4]
  unfold out3_4
  rw [View.canon_unit_zero zero2]
  simp only [View.ld_unit_zero (S := S20000x64) zero2, View.ld_unit_zero (S := S128x64) zero2, View.ld_unit_zero (S := S64) zero1]
  funext y
  obtain ⟨r, j, rfl⟩ : ∃ (r : Fin 20000) (j : Fin 64), y = ix2 r j := ⟨y 0, y 1, eq_ix2 y⟩
  show k3_pay1 (F := Ideal) (iblk3 V c 2 t) (iblk3 V c 0 t) (iblk3 V c 1 t) (iblk3 V c 3 t) (ix2 r j)
    = Cert.Gnn.edgeUpd (V c main_v67) (V c main_v74) (V c main_arg10) (V c main_arg11) (((cfg3.win 4).blk t).view.emb (ix2 r j))
  refine (block_entry (iblk3 V c 2 t) (iblk3 V c 0 t) (iblk3 V c 1 t) (iblk3 V c 3 t) r j).trans ?_
  refine Eq.trans ?_ (congrArg (Cert.Gnn.edgeUpd (V c main_v67) (V c main_v74) (V c main_arg10) (V c main_arg11)) (out_block t r j)).symm
  show _ = Cert.Gnn.edgeAt (V c main_v67) (V c main_v74) (V c main_arg10) (V c main_arg11) (arow t r) j
  unfold Cert.Gnn.edgeAt
  refine congrArg (fun u => max u Cert.Gnn.z0) ?_
  refine congrArg₂ (· + ·) (congrArg₂ (· + ·) ?_ ?_) (bias_block V c t j)
  · exact Finset.sum_congr rfl fun k _ => congrArg₂ (· * ·) (src_block V c t r k) (weights_block V c t _ j)
  · exact Finset.sum_congr rfl fun k _ => congrArg₂ (· * ·) (dst_block V c t r k) (weights_block V c t _ j)

/-- An index of the output array is in point t's block iff each coordinate is in the block's range on its axis. -/
theorem mem_blk (t : Fin cfg3.N) (i : S800000x64.Idx) :
    i ∈ ((cfg3.win 4).blk t).view.set ↔ ∀ a : Fin 2, win3_4.index t a * S20000x64.size a ≤ (i a).val ∧ (i a).val < win3_4.index t a * S20000x64.size a + S20000x64.size a := by
  show i ∈ ((View.whole main_v75).slice (win3_4.rect t)).set ↔ _
  rw [View.set_slice_whole, Rect.mem_set_unit]
  exact Iff.rfl

/-- Every entry of the output array is in some point's block: row i belongs to point i / 20000. -/
theorem cover (i : S800000x64.Idx) :
    ∃ t : Fin cfg3.N, (cfg3.win 4).flush t = true ∧ i ∈ ((cfg3.win 4).blk t).view.set := by
  have hi0 : (i 0).val < 800000 := (i 0).isLt
  have hi1 : (i 1).val < 64 := (i 1).isLt
  have ht : (i 0).val / 20000 < cfg3.N := by show _ < grid3.N; rw [N_3]; omega
  obtain ⟨-, -, -, -, -, -, -, e0, e1⟩ := block_of_point ⟨(i 0).val / 20000, ht⟩
  refine ⟨⟨(i 0).val / 20000, ht⟩, flush3_4 _, ?_⟩
  rw [mem_blk]
  intro a
  match a with
  | ⟨0, _⟩ =>
    show win3_4.index ⟨(i 0).val / 20000, ht⟩ (0 : Fin 2) * 20000 ≤ (i 0).val ∧ (i 0).val < win3_4.index ⟨(i 0).val / 20000, ht⟩ (0 : Fin 2) * 20000 + 20000
    have e0' : win3_4.index ⟨(i 0).val / 20000, ht⟩ (0 : Fin 2) = (i 0).val / 20000 := e0
    omega
  | ⟨1, _⟩ =>
    show win3_4.index ⟨(i 0).val / 20000, ht⟩ (1 : Fin 2) * 64 ≤ (i 1).val ∧ (i 1).val < win3_4.index ⟨(i 0).val / 20000, ht⟩ (1 : Fin 2) * 64 + 64
    omega

/-- The output array after the region's last write-back is the edge update of the arrays as the region found them. -/
theorem final (c : Dev nD) :
    (dat3 (F := Ideal) V c).arrAt 4 cfg3.N
      = Cert.Gnn.edgeUpd (V c main_v67) (V c main_v74) (V c main_arg10) (V c main_arg11) :=
  (dat3 (F := Ideal) V c).arrAt_eq_of_cover 4 (Cert.Gnn.edgeUpd (V c main_v67) (V c main_v74) (V c main_arg10) (V c main_arg11))
    (fun t _ => flushed_eq V c t) cover

end Cert.KernelIdeal.Region3

end
-- ==== Proof.KChain.lean ====
/-
  The kernel's program, boundary by boundary: what its two result buffers hold after the last region, as the two-layer
  composition of Proof/Bridge.lean applied to the launch contents of the twelve arguments.

  Each host stretch's results are its operations' terms of the buffers the stretch was entered with; each region leaves
  its inputs as entered and its output at the region's closed form (Proof/Region0 … Region3); no stretch and no region
  writes an argument, and after its region no later item writes a region's output (Proof/KWalk.lean).

  Layer 1: the first stretch gathers the source rows of the node features, sums them and the edge features per node and
  forms the reciprocal in-degree column; region 0 is the node update of those; the second stretch gathers the new node
  table's rows at both endpoints; region 1 is the edge update of those. Layer 2: the same four steps on layer 1's two
  tables, with the second layer's weights.
-/
import proofs.«416435_j22230750724513_4_alg».proof.Proof.Gen.KernelIdeal.Frame
import proofs.«416435_j22230750724513_4_alg».proof.Proof.KWalk
import proofs.«416435_j22230750724513_4_alg».proof.Proof.Bridge
import proofs.«416435_j22230750724513_4_alg».proof.Proof.Region0
import proofs.«416435_j22230750724513_4_alg».proof.Proof.Region1
import proofs.«416435_j22230750724513_4_alg».proof.Proof.Region2
import proofs.«416435_j22230750724513_4_alg».proof.Proof.Region3
import Idealize.ShloMosaic.Lib.StableHlo.Run

set_option maxRecDepth 16384

noncomputable section

namespace Cert.KernelIdeal.KChain

open Cert.KernelIdeal Cert.KernelIdeal.Gen Cert.KernelIdeal.Facts₀ Cert.KernelIdeal.Facts Cert.KernelIdeal.KWalk
open Idealize.ShloMosaic Idealize.ShloMosaic.TcCoe Idealize.SL.Sem
open Cert.Bridge (wrapColK rawColK rowsK sumRowsK rdegK nodeK edgeK outNodeK outEdgeK)

variable (m : (ℓ : Loc nD τ sig) → Buf (Elt Ideal) ℓ) (ρ : Dev nD → PrngReg)

/-! ## Names for the launch contents and the four tables -/

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)
abbrev A11 (c : Dev nD) := m ((c : Thread nD τ).loc main_arg11)

theorem mem0 : main_arg0 ∈ argRefs := by simp [argRefs]
theorem mem1 : main_arg1 ∈ argRefs := by simp [argRefs]
theorem mem2 : main_arg2 ∈ argRefs := by simp [argRefs]
theorem mem3 : main_arg3 ∈ argRefs := by simp [argRefs]
theorem mem4 : main_arg4 ∈ argRefs := by simp [argRefs]
theorem mem5 : main_arg5 ∈ argRefs := by simp [argRefs]
theorem mem6 : main_arg6 ∈ argRefs := by simp [argRefs]
theorem mem7 : main_arg7 ∈ argRefs := by simp [argRefs]
theorem mem8 : main_arg8 ∈ argRefs := by simp [argRefs]
theorem mem9 : main_arg9 ∈ argRefs := by simp [argRefs]
theorem mem10 : main_arg10 ∈ argRefs := by simp [argRefs]
theorem mem11 : main_arg11 ∈ argRefs := by simp [argRefs]

/-- layer 1's node table -/
abbrev H1 (c : Dev nD) := nodeK (A0 m c) (A1 m c) (A2 m c) (A3 m c) (A4 m c) (A5 m c)
/-- layer 1's edge table -/
abbrev E1 (c : Dev nD) := edgeK (H1 m c) (A2 m c) (A3 m c) (A6 m c) (A7 m c)
/-- layer 2's node table -/
abbrev H2 (c : Dev nD) := nodeK (H1 m c) (E1 m c) (A2 m c) (A3 m c) (A8 m c) (A9 m c)
/-- layer 2's edge table -/
abbrev E2 (c : Dev nD) := edgeK (H2 m c) (A2 m c) (A3 m c) (A10 m c) (A11 m c)

/-! ## Layer 1 -/

/-- The summed source rows, as region 0 finds them. -/
theorem W1_v9 (c : Dev nD) : W1 (F := Ideal) m ρ c (Proc.devRef .tc main_v9)
    = sumRowsK (rawColK (A3 m c)) (rowsK (A0 m c) (wrapColK (A2 m c))) := by
  show StableHlo.after hostOps0 (W0 m ρ c) (Proc.devRef .tc main_v9) = _
  after_results_simp
  rfl

/-- The summed edge rows. -/
theorem W1_v12 (c : Dev nD) : W1 (F := Ideal) m ρ c (Proc.devRef .tc main_v12) = sumRowsK (rawColK (A3 m c)) (A1 m c) := by
  show StableHlo.after hostOps0 (W0 m ρ c) (Proc.devRef .tc main_v12) = _
  after_results_simp
  rfl

/-- The reciprocal in-degree column. -/
theorem W1_v21 (c : Dev nD) : W1 (F := Ideal) m ρ c (Proc.devRef .tc main_v21) = rdegK (A3 m c) := by
  show StableHlo.after hostOps0 (W0 m ρ c) (Proc.devRef .tc main_v21) = _
  after_results_simp
  rfl

/-- Region 0 leaves layer 1's node table. -/
theorem W2_v22 (c : Dev nD) : W2 (F := Ideal) m ρ c (Proc.devRef .tc main_v22) = H1 m c := by
  refine ((W2_arr m ρ c 6).trans (Cert.KernelIdeal.Region0.final (V1 m ρ) c)).trans ?_
  show Cert.Gnn.nodeUpd (W1 m ρ c (Proc.devRef .tc main_arg0)) (W1 m ρ c (Proc.devRef .tc main_v9)) (W1 m ρ c (Proc.devRef .tc main_v12))
    (W1 m ρ c (Proc.devRef .tc main_v21)) (W1 m ρ c (Proc.devRef .tc main_arg4)) (W1 m ρ c (Proc.devRef .tc main_arg5)) = _
  rw [W1_arg m ρ c mem0, W1_v9, W1_v12, W1_v21, W1_arg m ρ c mem4, W1_arg m ρ c mem5]
  rfl

/-- The new node table's rows at the source endpoints. -/
theorem W3_v29 (c : Dev nD) : W3 (F := Ideal) m ρ c (Proc.devRef .tc main_v29) = rowsK (H1 m c) (wrapColK (A2 m c)) := by
  show StableHlo.after hostOps1 (W2 m ρ c) (Proc.devRef .tc main_v29) = _
  after_results_simp
  rw [W2_v22, W2_arg m ρ c mem2]
  rfl

/-- … and at the destination endpoints. -/
theorem W3_v36 (c : Dev nD) : W3 (F := Ideal) m ρ c (Proc.devRef .tc main_v36) = rowsK (H1 m c) (wrapColK (A3 m c)) := by
  show StableHlo.after hostOps1 (W2 m ρ c) (Proc.devRef .tc main_v36) = _
  after_results_simp
  rw [W2_v22, W2_arg m ρ c mem3]
  rfl

/-- Region 1 leaves layer 1's edge table. -/
theorem W4_v37 (c : Dev nD) : W4 (F := Ideal) m ρ c (Proc.devRef .tc main_v37) = E1 m c := by
  refine ((W4_arr m ρ c 4).trans (Cert.KernelIdeal.Region1.final (V3 m ρ) c)).trans ?_
  show Cert.Gnn.edgeUpd (W3 m ρ c (Proc.devRef .tc main_v29)) (W3 m ρ c (Proc.devRef .tc main_v36))
    (W3 m ρ c (Proc.devRef .tc main_arg6)) (W3 m ρ c (Proc.devRef .tc main_arg7)) = _
  rw [W3_v29, W3_v36, W3_arg m ρ c mem6, W3_arg m ρ c mem7]
  rfl

/-! ## Layer 2 -/

/-- Layer 1's node table is still there after region 1. -/
theorem W4_v22 (c : Dev nD) : W4 (F := Ideal) m ρ c (Proc.devRef .tc main_v22) = H1 m c :=
  (W4_keep m ρ c main_v22 (by decide)).trans ((W3_v22 m ρ c).trans (W2_v22 m ρ c))

/-- … and when region 2 is entered. -/
theorem W5_v22' (c : Dev nD) : W5 (F := Ideal) m ρ c (Proc.devRef .tc main_v22) = H1 m c :=
  (W5_v22 m ρ c).trans (W4_v22 m ρ c)

/-- The summed source rows of layer 1's node table. -/
theorem W5_v47 (c : Dev nD) : W5 (F := Ideal) m ρ c (Proc.devRef .tc main_v47)
    = sumRowsK (rawColK (A3 m c)) (rowsK (H1 m c) (wrapColK (A2 m c))) := by
  show StableHlo.after hostOps2 (W4 m ρ c) (Proc.devRef .tc main_v47) = _
  after_results_simp
  rw [W4_v22, W4_arg m ρ c mem2, W4_arg m ρ c mem3]
  rfl

/-- The summed rows of layer 1's edge table. -/
theorem W5_v50 (c : Dev nD) : W5 (F := Ideal) m ρ c (Proc.devRef .tc main_v50) = sumRowsK (rawColK (A3 m c)) (E1 m c) := by
  show StableHlo.after hostOps2 (W4 m ρ c) (Proc.devRef .tc main_v50) = _
  after_results_simp
  rw [W4_v37, W4_arg m ρ c mem3]
  rfl

/-- The reciprocal in-degree column, computed again. -/
theorem W5_v59 (c : Dev nD) : W5 (F := Ideal) m ρ c (Proc.devRef .tc main_v59) = rdegK (A3 m c) := by
  show StableHlo.after hostOps2 (W4 m ρ c) (Proc.devRef .tc main_v59) = _
  after_results_simp
  rw [W4_arg m ρ c mem3]
  rfl

/-- Region 2 leaves layer 2's node table. -/
theorem W6_v60 (c : Dev nD) : W6 (F := Ideal) m ρ c (Proc.devRef .tc main_v60) = H2 m c := by
  refine ((W6_arr m ρ c 6).trans (Cert.KernelIdeal.Region2.final (V5 m ρ) c)).trans ?_
  show Cert.Gnn.nodeUpd (W5 m ρ c (Proc.devRef .tc main_v22)) (W5 m ρ c (Proc.devRef .tc main_v47)) (W5 m ρ c (Proc.devRef .tc main_v50))
    (W5 m ρ c (Proc.devRef .tc main_v59)) (W5 m ρ c (Proc.devRef .tc main_arg8)) (W5 m ρ c (Proc.devRef .tc main_arg9)) = _
  rw [W5_v22', W5_v47, W5_v50, W5_v59, W5_arg m ρ c mem8, W5_arg m ρ c mem9]
  rfl

/-- Layer 2's node table's rows at the source endpoints. -/
theorem W7_v67 (c : Dev nD) : W7 (F := Ideal) m ρ c (Proc.devRef .tc main_v67) = rowsK (H2 m c) (wrapColK (A2 m c)) := by
  show StableHlo.after hostOps3 (W6 m ρ c) (Proc.devRef .tc main_v67) = _
  after_results_simp
  rw [W6_v60, W6_arg m ρ c mem2]
  rfl

/-- … and at the destination endpoints. -/
theorem W7_v74 (c : Dev nD) : W7 (F := Ideal) m ρ c (Proc.devRef .tc main_v74) = rowsK (H2 m c) (wrapColK (A3 m c)) := by
  show StableHlo.after hostOps3 (W6 m ρ c) (Proc.devRef .tc main_v74) = _
  after_results_simp
  rw [W6_v60, W6_arg m ρ c mem3]
  rfl

/-! ## The two results at the last boundary -/

/-- The first result buffer (the final node table) at the last boundary. -/
theorem W8_v60 (c : Dev nD) :
    W8 (F := Ideal) m ρ c (Proc.devRef .tc main_v60)
      = outNodeK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W8_keep m ρ c main_v60 (by decide)).trans ((W7_v60 m ρ c).trans (W6_v60 m ρ c))

/-- The second result buffer (the final edge table) at the last boundary. -/
theorem W8_v75 (c : Dev nD) :
    W8 (F := Ideal) m ρ c (Proc.devRef .tc main_v75)
      = outEdgeK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W8_arr m ρ c 4).trans (Cert.KernelIdeal.Region3.final (V7 m ρ) c)).trans ?_
  show Cert.Gnn.edgeUpd (W7 m ρ c (Proc.devRef .tc main_v67)) (W7 m ρ c (Proc.devRef .tc main_v74))
    (W7 m ρ c (Proc.devRef .tc main_arg10)) (W7 m ρ c (Proc.devRef .tc main_arg11)) = _
  rw [W7_v67, W7_v74, W7_arg m ρ c mem10, W7_arg m ρ c mem11]
  rfl

end Cert.KernelIdeal.KChain

end
-- ==== Proof.RefChain2.lean ====
/-
  The reference's run, read piece by piece: its two results are the two-layer composition of Proof/Bridge.lean (the
  reference's spelling) applied to the launch contents of the twelve arguments, and the arguments are left as launched.

  The reference's @main is a straight line of 120 operations, and what a buffer holds at its end is the fold of the
  operations' results over the launch contents. The line is cut into ten pieces, a cut before every join of two tables
  side by side, so that each join reads its two operands from the contents at a cut. At each cut the tables computed so
  far are named: the gathered source rows, the per-node mean of the joined rows, the node table, the node table's rows at
  both endpoints, the edge table; then the same again for the second layer, on the first layer's two tables. Each piece's
  result is its operations applied to what the piece before left; no piece writes an argument, and no piece writes a
  table that a later piece still reads.
-/
import proofs.«416435_j22230750724513_4_alg».proof.Proof.RefRun
import proofs.«416435_j22230750724513_4_alg».proof.Proof.Bridge
import Idealize.ShloMosaic.Lib.StableHlo.Run
import Idealize.ShloMosaic.Lib.Pipeline.Frame

set_option maxRecDepth 16384

noncomputable section

namespace Cert.ReferenceIdeal.RefChain2

open Cert.ReferenceIdeal Cert.ReferenceIdeal.Gen Idealize.ShloMosaic Idealize.ShloMosaic.TcCoe Idealize.SL.Sem Idealize.ShloMosaic.StableHlo
open Cert.Bridge (wrapColR rawColR rowsR degR nodeR edgeR outNodeR outEdgeR)
open Cert.ReferenceIdeal.RunP (opsA1 opsA2 opsA3 opsB1 opsB2 opsC1 opsC2 opsC3 opsD1 opsD2 ops_cut)

/-! ## The contents at each cut -/
section Walk

variable (m : (ℓ : Loc nD τ sig) → Buf (Elt Ideal) ℓ) (ρ : Dev nD → PrngReg)

/-- No operation of the named piece writes the buffer in the goal `after ops W b = W b`: each operation's one written
    buffer is another buffer of @main. -/
macro "piece_keeps" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, Finset.mem_singleton]
  repeat' apply And.intro
  all_goals exact StableHlo.devRef_ne_of_ne (by decide)))

/-- What every TensorCore buffer holds after the first piece, from the launch contents … -/
def Sa1 (c : Dev nD) : Valuation τ sig (Elt Ideal) := after (opsA1 (F := Ideal)) (launchContents m c)
/-- … and after each further piece, from the contents before it. -/
def Sa2 (c : Dev nD) : Valuation τ sig (Elt Ideal) := after (opsA2 (F := Ideal)) (Sa1 m c)
def Sa3 (c : Dev nD) : Valuation τ sig (Elt Ideal) := after (opsA3 (F := Ideal)) (Sa2 m c)
def Sb1 (c : Dev nD) : Valuation τ sig (Elt Ideal) := after (opsB1 (F := Ideal)) (Sa3 m c)
def Sb2 (c : Dev nD) : Valuation τ sig (Elt Ideal) := after (opsB2 (F := Ideal)) (Sb1 m c)
def Sc1 (c : Dev nD) : Valuation τ sig (Elt Ideal) := after (opsC1 (F := Ideal)) (Sb2 m c)
def Sc2 (c : Dev nD) : Valuation τ sig (Elt Ideal) := after (opsC2 (F := Ideal)) (Sc1 m c)
def Sc3 (c : Dev nD) : Valuation τ sig (Elt Ideal) := after (opsC3 (F := Ideal)) (Sc2 m c)
def Sd1 (c : Dev nD) : Valuation τ sig (Elt Ideal) := after (opsD1 (F := Ideal)) (Sc3 m c)
def Sd2 (c : Dev nD) : Valuation τ sig (Elt Ideal) := after (opsD2 (F := Ideal)) (Sd1 m c)

/-- The fold of all the operations is the fold piece by piece. -/
theorem after_ops (c : Dev nD) :
    after (Cert.ReferenceIdeal.RunP.ops (F := Ideal)) (launchContents m c) = Sd2 m c := by
  unfold Sd2 Sd1 Sc3 Sc2 Sc1 Sb2 Sb1 Sa3 Sa2 Sa1
  rw [ops_cut, StableHlo.after_append, StableHlo.after_append, StableHlo.after_append, StableHlo.after_append,
    StableHlo.after_append, StableHlo.after_append, StableHlo.after_append, StableHlo.after_append, StableHlo.after_append]

/-! ### Names for the launch contents and the four tables -/

abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)
abbrev A5 (c : Dev nD) := m ((c.tc : Thread nD τ).loc main_arg5)
abbrev A6 (c : Dev nD) := m ((c.tc : Thread nD τ).loc main_arg6)
abbrev A7 (c : Dev nD) := m ((c.tc : Thread nD τ).loc main_arg7)
abbrev A8 (c : Dev nD) := m ((c.tc : Thread nD τ).loc main_arg8)
abbrev A9 (c : Dev nD) := m ((c.tc : Thread nD τ).loc main_arg9)
abbrev A10 (c : Dev nD) := m ((c.tc : Thread nD τ).loc main_arg10)
abbrev A11 (c : Dev nD) := m ((c.tc : Thread nD τ).loc main_arg11)

/-- layer 1's node table -/
abbrev H1 (c : Dev nD) := nodeR (A0 m c) (A1 m c) (A2 m c) (A3 m c) (A4 m c) (A5 m c)
/-- layer 1's edge table -/
abbrev E1 (c : Dev nD) := edgeR (H1 m c) (A2 m c) (A3 m c) (A6 m c) (A7 m c)
/-- layer 2's node table -/
abbrev H2 (c : Dev nD) := nodeR (H1 m c) (E1 m c) (A2 m c) (A3 m c) (A8 m c) (A9 m c)
/-- layer 2's edge table -/
abbrev E2 (c : Dev nD) := edgeR (H2 m c) (A2 m c) (A3 m c) (A10 m c) (A11 m c)

/-- Per node, the sum over its incoming edges of the joined source row and edge row, divided by the clamped in-degree:
    the 128 columns the node operation joins behind the old table. -/
def meanR (h : FVec Ideal S50000x64 .f32) (e : FVec Ideal S800000x64 .f32) (x2 x3 : IVec S800000 32) :
    FVec Ideal S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32)) (rawColR x3)
      (concatenate S800000x128 1 [⟨S800000x64, rowsR h (wrapColR x2)⟩, ⟨S800000x64, e⟩]
        concatenates_S800000x64_S800000x64_S800000x128_d1))
    (broadcastInDim S50000x128 ![0, 1] bcast_S50000x1_S50000x128_0_1
      (broadcastInDim S50000x1 ![0] bcast_S50000_S50000x1_0 (degR x3)))

/-- The twelve arguments of @main. -/
def argRefs : List (Ref sig .tc) :=
  [main_arg0, main_arg1, main_arg2, main_arg3, main_arg4, main_arg5, main_arg6, main_arg7, main_arg8, main_arg9, main_arg10, main_arg11]

theorem mem0 : main_arg0 ∈ argRefs := by decide
theorem mem1 : main_arg1 ∈ argRefs := by decide
theorem mem2 : main_arg2 ∈ argRefs := by decide
theorem mem3 : main_arg3 ∈ argRefs := by decide
theorem mem4 : main_arg4 ∈ argRefs := by decide
theorem mem5 : main_arg5 ∈ argRefs := by decide
theorem mem6 : main_arg6 ∈ argRefs := by decide
theorem mem7 : main_arg7 ∈ argRefs := by decide
theorem mem8 : main_arg8 ∈ argRefs := by decide
theorem mem9 : main_arg9 ∈ argRefs := by decide
theorem mem10 : main_arg10 ∈ argRefs := by decide
theorem mem11 : main_arg11 ∈ argRefs := by decide

/-! ### Layer 1, the node table -/

/-- No operation of the first piece writes an argument. -/
theorem Sa1_arg (c : Dev nD) {b : Ref sig .tc} (hb : b ∈ argRefs) :
    Sa1 m c (Proc.devRef .tc b) = m ((c.tc : Thread nD τ).loc b) := by
  refine Eq.trans ?_ (rfl : launchContents m c (Proc.devRef .tc b) = _)
  simp only [argRefs, List.mem_cons, List.not_mem_nil, or_false] at hb
  unfold Sa1
  rcases hb with rfl | rfl | rfl | rfl | rfl | rfl | rfl | rfl | rfl | rfl | rfl | rfl <;> piece_keeps opsA1

/-- The source rows of the node features. -/
theorem Sa1_v6 (c : Dev nD) : Sa1 m c (Proc.devRef .tc main_v6) = rowsR (A0 m c) (wrapColR (A2 m c)) := by
  show after (opsA1 (F := Ideal)) (launchContents m c) (Proc.devRef .tc main_v6) = _
  after_results_simp
  rfl

theorem Sa2_arg (c : Dev nD) {b : Ref sig .tc} (hb : b ∈ argRefs) :
    Sa2 m c (Proc.devRef .tc b) = m ((c.tc : Thread nD τ).loc b) := by
  refine Eq.trans ?_ (Sa1_arg m c hb)
  simp only [argRefs, List.mem_cons, List.not_mem_nil, or_false] at hb
  unfold Sa2
  rcases hb with rfl | rfl | rfl | rfl | rfl | rfl | rfl | rfl | rfl | rfl | rfl | rfl <;> piece_keeps opsA2

/-- The mean of the joined source rows and edge rows. -/
theorem Sa2_v19 (c : Dev nD) : Sa2 m c (Proc.devRef .tc main_v19) = meanR (A0 m c) (A1 m c) (A2 m c) (A3 m c) := by
  show after (opsA2 (F := Ideal)) (Sa1 m c) (Proc.devRef .tc main_v19) = _
  after_results_simp
  rw [Sa1_v6, Sa1_arg m c mem1, Sa1_arg m c mem3]
  rfl

theorem Sa3_arg (c : Dev nD) {b : Ref sig .tc} (hb : b ∈ argRefs) :
    Sa3 m c (Proc.devRef .tc b) = m ((c.tc : Thread nD τ).loc b) := by
  refine Eq.trans ?_ (Sa2_arg m c hb)
  simp only [argRefs, List.mem_cons, List.not_mem_nil, or_false] at hb
  unfold Sa3
  rcases hb with rfl | rfl | rfl | rfl | rfl | rfl | rfl | rfl | rfl | rfl | rfl | rfl <;> piece_keeps opsA3

/-- Layer 1's node table. -/
theorem Sa3_v25 (c : Dev nD) : Sa3 m c (Proc.devRef .tc main_v25) = H1 m c := by
  show after (opsA3 (F := Ideal)) (Sa2 m c) (Proc.devRef .tc main_v25) = _
  after_results_simp
  rw [Sa2_v19, Sa2_arg m c mem0, Sa2_arg m c mem4, Sa2_arg m c mem5]
  rfl

/-! ### Layer 1, the edge table -/

theorem Sb1_arg (c : Dev nD) {b : Ref sig .tc} (hb : b ∈ argRefs) :
    Sb1 m c (Proc.devRef .tc b) = m ((c.tc : Thread nD τ).loc b) := by
  refine Eq.trans ?_ (Sa3_arg m c hb)
  simp only [argRefs, List.mem_cons, List.not_mem_nil, or_false] at hb
  unfold Sb1
  rcases hb with rfl | rfl | rfl | rfl | rfl | rfl | rfl | rfl | rfl | rfl | rfl | rfl <;> piece_keeps opsB1

/-- The new node table's rows at the source endpoints … -/
theorem Sb1_v32 (c : Dev nD) : Sb1 m c (Proc.devRef .tc main_v32) = rowsR (H1 m c) (wrapColR (A2 m c)) := by
  show after (opsB1 (F := Ideal)) (Sa3 m c) (Proc.devRef .tc main_v32) = _
  after_results_simp
  rw [Sa3_v25, Sa3_arg m c mem2]
  rfl

/-- … and at the destination endpoints. -/
theorem Sb1_v39 (c : Dev nD) : Sb1 m c (Proc.devRef .tc main_v39) = rowsR (H1 m c) (wrapColR (A3 m c)) := by
  show after (opsB1 (F := Ideal)) (Sa3 m c) (Proc.devRef .tc main_v39) = _
  after_results_simp
  rw [Sa3_v25, Sa3_arg m c mem3]
  rfl

/-- The piece writes no buffer of the node table, which layer 2 reads again. -/
theorem Sb1_v25 (c : Dev nD) : Sb1 m c (Proc.devRef .tc main_v25) = H1 m c := by
  refine Eq.trans ?_ (Sa3_v25 m c)
  unfold Sb1
  piece_keeps opsB1

theorem Sb2_arg (c : Dev nD) {b : Ref sig .tc} (hb : b ∈ argRefs) :
    Sb2 m c (Proc.devRef .tc b) = m ((c.tc : Thread nD τ).loc b) := by
  refine Eq.trans ?_ (Sb1_arg m c hb)
  simp only [argRefs, List.mem_cons, List.not_mem_nil, or_false] at hb
  unfold Sb2
  rcases hb with rfl | rfl | rfl | rfl | rfl | rfl | rfl | rfl | rfl | rfl | rfl | rfl <;> piece_keeps opsB2

/-- Layer 1's edge table. -/
theorem Sb2_v45 (c : Dev nD) : Sb2 m c (Proc.devRef .tc main_v45) = E1 m c := by
  show after (opsB2 (F := Ideal)) (Sb1 m c) (Proc.devRef .tc main_v45) = _
  after_results_simp
  rw [Sb1_v32, Sb1_v39, Sb1_arg m c mem6, Sb1_arg m c mem7]
  rfl

theorem Sb2_v25 (c : Dev nD) : Sb2 m c (Proc.devRef .tc main_v25) = H1 m c := by
  refine Eq.trans ?_ (Sb1_v25 m c)
  unfold Sb2
  piece_keeps opsB2

/-! ### Layer 2, the node table -/

theorem Sc1_arg (c : Dev nD) {b : Ref sig .tc} (hb : b ∈ argRefs) :
    Sc1 m c (Proc.devRef .tc b) = m ((c.tc : Thread nD τ).loc b) := by
  refine Eq.trans ?_ (Sb2_arg m c hb)
  simp only [argRefs, List.mem_cons, List.not_mem_nil, or_false] at hb
  unfold Sc1
  rcases hb with rfl | rfl | rfl | rfl | rfl | rfl | rfl | rfl | rfl | rfl | rfl | rfl <;> piece_keeps opsC1

/-- The source rows of layer 1's node table. -/
theorem Sc1_v52 (c : Dev nD) : Sc1 m c (Proc.devRef .tc main_v52) = rowsR (H1 m c) (wrapColR (A2 m c)) := by
  show after (opsC1 (F := Ideal)) (Sb2 m c) (Proc.devRef .tc main_v52) = _
  after_results_simp
  rw [Sb2_v25, Sb2_arg m c mem2]
  rfl

theorem Sc1_v25 (c : Dev nD) : Sc1 m c (Proc.devRef .tc main_v25) = H1 m c := by
  refine Eq.trans ?_ (Sb2_v25 m c)
  unfold Sc1
  piece_keeps opsC1

theorem Sc1_v45 (c : Dev nD) : Sc1 m c (Proc.devRef .tc main_v45) = E1 m c := by
  refine Eq.trans ?_ (Sb2_v45 m c)
  unfold Sc1
  piece_keeps opsC1

theorem Sc2_arg (c : Dev nD) {b : Ref sig .tc} (hb : b ∈ argRefs) :
    Sc2 m c (Proc.devRef .tc b) = m ((c.tc : Thread nD τ).loc b) := by
  refine Eq.trans ?_ (Sc1_arg m c hb)
  simp only [argRefs, List.mem_cons, List.not_mem_nil, or_false] at hb
  unfold Sc2
  rcases hb with rfl | rfl | rfl | rfl | rfl | rfl | rfl | rfl | rfl | rfl | rfl | rfl <;> piece_keeps opsC2

/-- The mean of the joined source rows and layer 1's edge rows. -/
theorem Sc2_v65 (c : Dev nD) : Sc2 m c (Proc.devRef .tc main_v65) = meanR (H1 m c) (E1 m c) (A2 m c) (A3 m c) := by
  show after (opsC2 (F := Ideal)) (Sc1 m c) (Proc.devRef .tc main_v65) = _
  after_results_simp
  rw [Sc1_v52, Sc1_v45, Sc1_arg m c mem3]
  rfl

theorem Sc2_v25 (c : Dev nD) : Sc2 m c (Proc.devRef .tc main_v25) = H1 m c := by
  refine Eq.trans ?_ (Sc1_v25 m c)
  unfold Sc2
  piece_keeps opsC2

theorem Sc3_arg (c : Dev nD) {b : Ref sig .tc} (hb : b ∈ argRefs) :
    Sc3 m c (Proc.devRef .tc b) = m ((c.tc : Thread nD τ).loc b) := by
  refine Eq.trans ?_ (Sc2_arg m c hb)
  simp only [argRefs, List.mem_cons, List.not_mem_nil, or_false] at hb
  unfold Sc3
  rcases hb with rfl | rfl | rfl | rfl | rfl | rfl | rfl | rfl | rfl | rfl | rfl | rfl <;> piece_keeps opsC3

/-- Layer 2's node table. -/
theorem Sc3_v71 (c : Dev nD) : Sc3 m c (Proc.devRef .tc main_v71) = H2 m c := by
  show after (opsC3 (F := Ideal)) (Sc2 m c) (Proc.devRef .tc main_v71) = _
  after_results_simp
  rw [Sc2_v25, Sc2_v65, Sc2_arg m c mem8, Sc2_arg m c mem9]
  rfl

/-! ### Layer 2, the edge table -/

theorem Sd1_arg (c : Dev nD) {b : Ref sig .tc} (hb : b ∈ argRefs) :
    Sd1 m c (Proc.devRef .tc b) = m ((c.tc : Thread nD τ).loc b) := by
  refine Eq.trans ?_ (Sc3_arg m c hb)
  simp only [argRefs, List.mem_cons, List.not_mem_nil, or_false] at hb
  unfold Sd1
  rcases hb with rfl | rfl | rfl | rfl | rfl | rfl | rfl | rfl | rfl | rfl | rfl | rfl <;> piece_keeps opsD1

/-- Layer 2's node table's rows at the source endpoints … -/
theorem Sd1_v78 (c : Dev nD) : Sd1 m c (Proc.devRef .tc main_v78) = rowsR (H2 m c) (wrapColR (A2 m c)) := by
  show after (opsD1 (F := Ideal)) (Sc3 m c) (Proc.devRef .tc main_v78) = _
  after_results_simp
  rw [Sc3_v71, Sc3_arg m c mem2]
  rfl

/-- … and at the destination endpoints. -/
theorem Sd1_v85 (c : Dev nD) : Sd1 m c (Proc.devRef .tc main_v85) = rowsR (H2 m c) (wrapColR (A3 m c)) := by
  show after (opsD1 (F := Ideal)) (Sc3 m c) (Proc.devRef .tc main_v85) = _
  after_results_simp
  rw [Sc3_v71, Sc3_arg m c mem3]
  rfl

/-- The first result's buffer is written by no later operation. -/
theorem Sd1_v71 (c : Dev nD) : Sd1 m c (Proc.devRef .tc main_v71) = H2 m c := by
  refine Eq.trans ?_ (Sc3_v71 m c)
  unfold Sd1
  piece_keeps opsD1

theorem Sd2_arg (c : Dev nD) {b : Ref sig .tc} (hb : b ∈ argRefs) :
    Sd2 m c (Proc.devRef .tc b) = m ((c.tc : Thread nD τ).loc b) := by
  refine Eq.trans ?_ (Sd1_arg m c hb)
  simp only [argRefs, List.mem_cons, List.not_mem_nil, or_false] at hb
  unfold Sd2
  rcases hb with rfl | rfl | rfl | rfl | rfl | rfl | rfl | rfl | rfl | rfl | rfl | rfl <;> piece_keeps opsD2

/-- Layer 2's edge table. -/
theorem Sd2_v91 (c : Dev nD) : Sd2 m c (Proc.devRef .tc main_v91) = E2 m c := by
  show after (opsD2 (F := Ideal)) (Sd1 m c) (Proc.devRef .tc main_v91) = _
  after_results_simp
  rw [Sd1_v78, Sd1_v85, Sd1_arg m c mem10, Sd1_arg m c mem11]
  rfl

theorem Sd2_v71 (c : Dev nD) : Sd2 m c (Proc.devRef .tc main_v71) = H2 m c := by
  refine Eq.trans ?_ (Sd1_v71 m c)
  unfold Sd2
  piece_keeps opsD2

/-! ## The run -/

/-- On every device, from any memory with zero counters, every weakly fair execution of the reference's @main
    terminates with its two results at the two-layer compositions of the arguments' launch contents, the arguments
    unchanged. -/
theorem run :
    θ_run (Cert.ReferenceIdeal.defs (F := Ideal)) (onTc (τ := τ) (main (F := Ideal))) ⟨m, fun _ => 0, ρ⟩ fun r => ∀ c : Dev nD,
      r.2.mem ((c.tc : Thread nD τ).loc main_v71) = outNodeR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v91) = outEdgeR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨
      (h c main_v71).trans ((congrFun (after_ops m c) _).trans (Sd2_v71 m c)),
      (h c main_v91).trans ((congrFun (after_ops m c) _).trans (Sd2_v91 m c)),
      (h c main_arg0).trans ((congrFun (after_ops m c) _).trans (Sd2_arg m c mem0)),
      (h c main_arg1).trans ((congrFun (after_ops m c) _).trans (Sd2_arg m c mem1)),
      (h c main_arg2).trans ((congrFun (after_ops m c) _).trans (Sd2_arg m c mem2)),
      (h c main_arg3).trans ((congrFun (after_ops m c) _).trans (Sd2_arg m c mem3)),
      (h c main_arg4).trans ((congrFun (after_ops m c) _).trans (Sd2_arg m c mem4)),
      (h c main_arg5).trans ((congrFun (after_ops m c) _).trans (Sd2_arg m c mem5)),
      (h c main_arg6).trans ((congrFun (after_ops m c) _).trans (Sd2_arg m c mem6)),
      (h c main_arg7).trans ((congrFun (after_ops m c) _).trans (Sd2_arg m c mem7)),
      (h c main_arg8).trans ((congrFun (after_ops m c) _).trans (Sd2_arg m c mem8)),
      (h c main_arg9).trans ((congrFun (after_ops m c) _).trans (Sd2_arg m c mem9)),
      (h c main_arg10).trans ((congrFun (after_ops m c) _).trans (Sd2_arg m c mem10)),
      (h c main_arg11).trans ((congrFun (after_ops m c) _).trans (Sd2_arg m c mem11))⟩)
    (Cert.ReferenceIdeal.RunP.run_raw (F := Ideal) m ρ)

end Walk

end Cert.ReferenceIdeal.RefChain2

end
-- ==== Proof.lean ====
/-
  Two layers of a message-passing network on 50000 nodes and 800000 edges, the kernel's program against its jnp reference,
  at the extended reals.

  In each layer the kernel's program gathers the source rows, sums them and the edge rows over each node's incoming
  edges with two 64-column accumulating scatters, multiplies by the reciprocal of the in-degree (clamped below by one)
  and runs a node kernel (three 64-wide matrix products, bias, rectifier) and an edge kernel (two 64-wide products of
  the gathered endpoint rows, bias, rectifier). The reference scatters the 128-column join once, DIVIDES by the clamped
  in-degree, and contracts the 192-column (128-column) joins once. Entry by entry the two are one extended real
  (Proof/Bridge.lean): the scatter's column does not choose which updates are summed; a quotient by c ≠ 0 is the
  product with 1 / c; a sum over consecutive stretches is the sum of the stretches' sums.

  Kernel side: the launch over @main's segments read with its two result buffers kept (Proof/KRun.lean), the buffers'
  contents boundary by boundary (Proof/KChain.lean over the four regions' closed forms, Proof/Region0 … Region3).
  Reference side: its run read piece by piece, a cut before every join of two tables, into the same two-layer
  composition (Proof/RefChain2.lean over the operation list of Proof/RefRun.lean). The frames are the generated ones; the idealization rewrote nothing.
-/
import proofs.«416435_j22230750724513_4_alg».proof.Defs
import proofs.«416435_j22230750724513_4_alg».proof.Proof.Gen.Kernel
import proofs.«416435_j22230750724513_4_alg».proof.Proof.Gen.Kernel.Skeleton
import proofs.«416435_j22230750724513_4_alg».proof.Proof.Gen.Kernel.Launch
import proofs.«416435_j22230750724513_4_alg».proof.Proof.Gen.Kernel.Points
import proofs.«416435_j22230750724513_4_alg».proof.Proof.Gen.Kernel.Frame
import proofs.«416435_j22230750724513_4_alg».proof.Proof.Gen.KernelIdeal
import proofs.«416435_j22230750724513_4_alg».proof.Proof.Gen.KernelIdeal.Skeleton
import proofs.«416435_j22230750724513_4_alg».proof.Proof.Gen.KernelIdeal.Launch
import proofs.«416435_j22230750724513_4_alg».proof.Proof.Gen.KernelIdeal.Points
import proofs.«416435_j22230750724513_4_alg».proof.Proof.Gen.KernelIdeal.Frame
import proofs.«416435_j22230750724513_4_alg».proof.Proof.Gen.ReferenceIdeal
import proofs.«416435_j22230750724513_4_alg».proof.Proof.Gen.Pre_finite_inputs
import proofs.«416435_j22230750724513_4_alg».proof.Proof.Bridge
import proofs.«416435_j22230750724513_4_alg».proof.Proof.KRun
import proofs.«416435_j22230750724513_4_alg».proof.Proof.KChain
import proofs.«416435_j22230750724513_4_alg».proof.Proof.RefRun
import proofs.«416435_j22230750724513_4_alg».proof.Proof.RefChain2
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference runs and leaves its arguments as launched: its run, the two results dropped. -/
theorem frame_ri : Cert.frame_ReferenceIdeal := fun m ρ _ =>
  (θ_run Cert.ReferenceIdeal.defs _ _).mono (fun _ h c => (h c).2.2) (Cert.ReferenceIdeal.RefChain2.run m ρ)

/-- The idealization rewrote no operation. -/
theorem preserves : Cert.preserves_Kernel_KernelIdeal := trivial

/-- From memories that agree on the twelve arguments both programs end with the two-layer composition of those
    arguments in their two result buffers: the kernel's program by its boundaries' contents, the reference by its
    stages, and the two compositions are one function. -/
theorem algebraic : Cert.algebraic_KernelIdeal_ReferenceIdeal := by
  intro m ρ m' ρ' _ hagree
  refine ⟨fun c => Cert.Bridge.outNodeK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    fun c => Cert.Bridge.outEdgeK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.KRun.run (F := Ideal) m ρ)
    obtain ⟨h60, h75, hargs⟩ := h c
    exact ⟨h60.trans (Cert.KernelIdeal.KChain.W8_v60 m ρ c), h75.trans (Cert.KernelIdeal.KChain.W8_v75 m ρ c), hargs⟩
  · refine (θ_run Cert.ReferenceIdeal.defs _ _).mono (fun r h c => ?_) (Cert.ReferenceIdeal.RefChain2.run m' ρ')
    obtain ⟨h71, h91, hargs⟩ := h c
    obtain ⟨e0, e1, e2, e3, e4, e5, e6, e7, e8, e9, e10, e11⟩ := hagree c
    refine ⟨h71.trans ?_, h91.trans ?_, hargs⟩
    · rw [Cert.Bridge.outNode_eq, e0, e1, e2, e3, e4, e5, e6, e7, e8, e9]
    · rw [Cert.Bridge.outEdge_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
